-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S128x64 .f32) (main_arg5 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S2000x128 : Shape := ⟨2, ![2000, 128]⟩
abbrev S850000x128 : Shape := ⟨2, ![850000, 128]⟩
abbrev S1x128 : Shape := ⟨2, ![1, 128]⟩
abbrev S50000x64 : Shape := ⟨2, ![50000, 64]⟩
abbrev S2000x64 : Shape := ⟨2, ![2000, 64]⟩
abbrev S850000x64 : Shape := ⟨2, ![850000, 64]⟩
abbrev S1x64 : Shape := ⟨2, ![1, 64]⟩
abbrev S2000 : Shape := ⟨1, ![2000]⟩
abbrev S2000x1 : Shape := ⟨2, ![2000, 1]⟩

abbrev nBuf : Space → Nat
  | .hbm => 107
  | .vmem => 19
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x128, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S50000x128, .f32⟩
  | .hbm, ⟨67, _⟩ => ⟨S_, .i32⟩
  | .hbm, ⟨68, _⟩ => ⟨S850000, .i32⟩
  | .hbm, ⟨69, _⟩ => ⟨S850000, .i1⟩
  | .hbm, ⟨70, _⟩ => ⟨S_, .i32⟩
  | .hbm, ⟨71, _⟩ => ⟨S850000, .i32⟩
  | .hbm, ⟨72, _⟩ => ⟨S850000, .i32⟩
  | .hbm, ⟨73, _⟩ => ⟨S850000, .i32⟩
  | .hbm, ⟨74, _⟩ => ⟨S850000x1, .i32⟩
  | .hbm, ⟨75, _⟩ => ⟨S850000x128, .f32⟩
  | .hbm, ⟨76, _⟩ => ⟨S850000x1, .f32⟩
  | .hbm, ⟨77, _⟩ => ⟨S850000x128, .f32⟩
  | .hbm, ⟨78, _⟩ => ⟨S850000x128, .f32⟩
  | .hbm, ⟨79, _⟩ => ⟨S_, .f32⟩
  | .hbm, ⟨80, _⟩ => ⟨S50000x128, .f32⟩
  | .hbm, ⟨81, _⟩ => ⟨S850000x1, .i32⟩
  | .hbm, ⟨82, _⟩ => ⟨S50000x128, .f32⟩
  | .hbm, ⟨83, _⟩ => ⟨S1x128, .f32⟩
  | .hbm, ⟨84, _⟩ => ⟨S50000x128, .f32⟩
  | .hbm, ⟨85, _⟩ => ⟨S50000x128, .f32⟩
  | .hbm, ⟨86, _⟩ => ⟨S50000x64, .f32⟩
  | .hbm, ⟨87, _⟩ => ⟨S_, .i32⟩
  | .hbm, ⟨88, _⟩ => ⟨S850000, .i32⟩
  | .hbm, ⟨89, _⟩ => ⟨S850000, .i1⟩
  | .hbm, ⟨90, _⟩ => ⟨S_, .i32⟩
  | .hbm, ⟨91, _⟩ => ⟨S850000, .i32⟩
  | .hbm, ⟨92, _⟩ => ⟨S850000, .i32⟩
  | .hbm, ⟨93, _⟩ => ⟨S850000, .i32⟩
  | .hbm, ⟨94, _⟩ => ⟨S850000x1, .i32⟩
  | .hbm, ⟨95, _⟩ => ⟨S850000x64, .f32⟩
  | .hbm, ⟨96, _⟩ => ⟨S850000x1, .f32⟩
  | .hbm, ⟨97, _⟩ => ⟨S850000x64, .f32⟩
  | .hbm, ⟨98, _⟩ => ⟨S850000x64, .f32⟩
  | .hbm, ⟨99, _⟩ => ⟨S_, .f32⟩
  | .hbm, ⟨100, _⟩ => ⟨S50000x64, .f32⟩
  | .hbm, ⟨101, _⟩ => ⟨S850000x1, .i32⟩
  | .hbm, ⟨102, _⟩ => ⟨S50000x64, .f32⟩
  | .hbm, ⟨103, _⟩ => ⟨S1x64, .f32⟩
  | .hbm, ⟨104, _⟩ => ⟨S50000x64, .f32⟩
  | .hbm, ⟨105, _⟩ => ⟨S50000x64, .f32⟩
  | .hbm, ⟨106, _⟩ => ⟨S50000x64, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S128x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x64, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S2000x64, .f32⟩
  | .local _ .vmem, ⟨17, _⟩ => ⟨S2000x64, .f32⟩
  | .local _ .vmem, ⟨18, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_c_9 : Ref sig .tc := ⟨.hbm, 67, rfl⟩
abbrev main_v48 : Ref sig .tc := ⟨.hbm, 68, rfl⟩
abbrev main_v49 : Ref sig .tc := ⟨.hbm, 69, rfl⟩
abbrev main_c_10 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_11 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_c_12 : Ref sig .tc := ⟨.hbm, 87, rfl⟩
abbrev main_v65 : Ref sig .tc := ⟨.hbm, 88, rfl⟩
abbrev main_v66 : Ref sig .tc := ⟨.hbm, 89, rfl⟩
abbrev main_c_13 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_cst_14 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem1_1 : DmaSem sig := 18

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S2000x128_S2000x128 : S2000x128.ShapeCasts S2000x128
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  shapeCasts_S2000x64_S2000x64 : S2000x64.ShapeCasts S2000x64
  reduces_S2000x64_S2000 : S2000x64.Reduces [1] S2000
  shapeCasts_S2000_S2000x1 : S2000.ShapeCasts S2000x1
  broadcasts_S2000x1_S2000x64 : S2000x1.Broadcasts S2000x64
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x128_S128x128_S2000x128_1_0_0_1_n_n_wf : DotDims.WF S2000x128 S128x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S2000x128_S128x64_S2000x64_1_0_0_1_n_n_wf : DotDims.WF S2000x128 S128x64 S2000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S50000x64.size a
  hwx2_2 : ∀ i : grid2.Coords, EltTy.bits .f32 = 32 ∨ (Rect.block (s := S50000x64) S2000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S50000x64.size a
  hwx3_0 : ∀ i : grid3.Coords, EltTy.bits .f32 = 32 ∨ (Rect.block (s := S50000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x64.size a ≤ S50000x64.size a
  hwx3_1 : ∀ i : grid3.Coords, EltTy.bits .f32 = 32 ∨ (Rect.block (s := S50000x64) S2000x64.size (cc3_transform_1 i) (hinb3_1 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v63) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v64) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v80) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v81) S2000x64.size cc3_transform_1 reads3_1 true false 2 stage3_1 sem3_1
    hrank3 hreads3_1 hinb3_1 nbuf3_1 (Memref.isWhole_whole _) hwx3_1 hstage3_1

abbrev win3 : Fin 2 → Pipeline.Window sig grid3 := fun | 0 => win3_0 | 1 => win3_1 | ⟨_ + 2, h⟩ => absurd h (Nat.not_lt.2 (Nat.le_add_left _ _))
abbrev spec3 : Fin 2 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩
abbrev S50000x1 : Shape := ⟨2, ![50000, 1]⟩

abbrev nBuf : Space → Nat
  | .hbm => 162
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x64, .f32⟩
  | 5 => ⟨S64, .f32⟩
  | 6 => ⟨S50000, .i32⟩
  | 7 => ⟨S1x800000, .i32⟩
  | 8 => ⟨S800000, .i32⟩
  | 9 => ⟨S850000, .i32⟩
  | 10 => ⟨S1x800000, .i32⟩
  | 11 => ⟨S800000, .i32⟩
  | 12 => ⟨S850000, .i32⟩
  | 13 => ⟨S_, .f32⟩
  | 14 => ⟨S850000, .f32⟩
  | 15 => ⟨S_, .f32⟩
  | 16 => ⟨S50000, .f32⟩
  | 17 => ⟨S850000x1, .i32⟩
  | 18 => ⟨S50000, .f32⟩
  | 19 => ⟨S_, .f32⟩
  | 20 => ⟨S50000, .f32⟩
  | 21 => ⟨S50000, .i1⟩
  | 22 => ⟨S50000, .f32⟩
  | 23 => ⟨S_, .f32⟩
  | 24 => ⟨S_, .f32⟩
  | 25 => ⟨S50000, .f32⟩
  | 26 => ⟨S50000, .f32⟩
  | 27 => ⟨S50000x128, .f32⟩
  | 28 => ⟨S_, .i32⟩
  | 29 => ⟨S850000, .i32⟩
  | 30 => ⟨S850000, .i1⟩
  | 31 => ⟨S_, .i32⟩
  | 32 => ⟨S850000, .i32⟩
  | 33 => ⟨S850000, .i32⟩
  | 34 => ⟨S850000, .i32⟩
  | 35 => ⟨S850000x1, .i32⟩
  | 36 => ⟨S850000, .f32⟩
  | 37 => ⟨S_, .i32⟩
  | 38 => ⟨S850000, .i32⟩
  | 39 => ⟨S850000, .i1⟩
  | 40 => ⟨S_, .i32⟩
  | 41 => ⟨S850000, .i32⟩
  | 42 => ⟨S850000, .i32⟩
  | 43 => ⟨S850000, .i32⟩
  | 44 => ⟨S850000x1, .i32⟩
  | 45 => ⟨S850000, .f32⟩
  | 46 => ⟨S850000, .f32⟩
  | 47 => ⟨S_, .i32⟩
  | 48 => ⟨S850000, .i32⟩
  | 49 => ⟨S850000, .i1⟩
  | 50 => ⟨S_, .i32⟩
  | 51 => ⟨S850000, .i32⟩
  | 52 => ⟨S850000, .i32⟩
  | 53 => ⟨S850000, .i32⟩
  | 54 => ⟨S850000x1, .i32⟩
  | 55 => ⟨S850000x128, .f32⟩
  | 56 => ⟨S850000x1, .f32⟩
  | 57 => ⟨S850000x128, .f32⟩
  | 58 => ⟨S850000x128, .f32⟩
  | 59 => ⟨S_, .f32⟩
  | 60 => ⟨S50000x128, .f32⟩
  | 61 => ⟨S850000x1, .i32⟩
  | 62 => ⟨S50000x128, .f32⟩
  | 63 => ⟨S1x128, .f32⟩
  | 64 => ⟨S50000x128, .f32⟩
  | 65 => ⟨S50000x128, .f32⟩
  | 66 => ⟨S50000x128, .f32⟩
  | 67 => ⟨S_, .i32⟩
  | 68 => ⟨S850000, .i32⟩
  | 69 => ⟨S850000, .i1⟩
  | 70 => ⟨S_, .i32⟩
  | 71 => ⟨S850000, .i32⟩
  | 72 => ⟨S850000, .i32⟩
  | 73 => ⟨S850000, .i32⟩
  | 74 => ⟨S850000x1, .i32⟩
  | 75 => ⟨S850000, .f32⟩
  | 76 => ⟨S_, .i32⟩
  | 77 => ⟨S850000, .i32⟩
  | 78 => ⟨S850000, .i1⟩
  | 79 => ⟨S_, .i32⟩
  | 80 => ⟨S850000, .i32⟩
  | 81 => ⟨S850000, .i32⟩
  | 82 => ⟨S850000, .i32⟩
  | 83 => ⟨S850000x1, .i32⟩
  | 84 => ⟨S850000, .f32⟩
  | 85 => ⟨S850000, .f32⟩
  | 86 => ⟨S_, .i32⟩
  | 87 => ⟨S850000, .i32⟩
  | 88 => ⟨S850000, .i1⟩
  | 89 => ⟨S_, .i32⟩
  | 90 => ⟨S850000, .i32⟩
  | 91 => ⟨S850000, .i32⟩
  | 92 => ⟨S850000, .i32⟩
  | 93 => ⟨S850000x1, .i32⟩
  | 94 => ⟨S850000x128, .f32⟩
  | 95 => ⟨S850000x1, .f32⟩
  | 96 => ⟨S850000x128, .f32⟩
  | 97 => ⟨S850000x128, .f32⟩
  | 98 => ⟨S_, .f32⟩
  | 99 => ⟨S50000x128, .f32⟩
  | 100 => ⟨S850000x1, .i32⟩
  | 101 => ⟨S50000x128, .f32⟩
  | 102 => ⟨S1x128, .f32⟩
  | 103 => ⟨S50000x128, .f32⟩
  | 104 => ⟨S50000x128, .f32⟩
  | 105 => ⟨S_, .f32⟩
  | 106 => ⟨S50000x128, .f32⟩
  | 107 => ⟨S50000x128, .f32⟩
  | 108 => ⟨S50000x64, .f32⟩
  | 109 => ⟨S_, .i32⟩
  | 110 => ⟨S850000, .i32⟩
  | 111 => ⟨S850000, .i1⟩
  | 112 => ⟨S_, .i32⟩
  | 113 => ⟨S850000, .i32⟩
  | 114 => ⟨S850000, .i32⟩
  | 115 => ⟨S850000, .i32⟩
  | 116 => ⟨S850000x1, .i32⟩
  | 117 => ⟨S850000, .f32⟩
  | 118 => ⟨S_, .i32⟩
  | 119 => ⟨S850000, .i32⟩
  | 120 => ⟨S850000, .i1⟩
  | 121 => ⟨S_, .i32⟩
  | 122 => ⟨S850000, .i32⟩
  | 123 => ⟨S850000, .i32⟩
  | 124 => ⟨S850000, .i32⟩
  | 125 => ⟨S850000x1, .i32⟩
  | 126 => ⟨S850000, .f32⟩
  | 127 => ⟨S850000, .f32⟩
  | _ => ⟨S50000x128, .f32⟩

abbrev hbmTy0_1 (i : Nat) : BufTy := match i % 128 with
  | 0 => ⟨S_, .i32⟩
  | 1 => ⟨S850000, .i32⟩
  | 2 => ⟨S850000, .i1⟩
  | 3 => ⟨S_, .i32⟩
  | 4 => ⟨S850000, .i32⟩
  | 5 => ⟨S850000, .i32⟩
  | 6 => ⟨S850000, .i32⟩
  | 7 => ⟨S850000x1, .i32⟩
  | 8 => ⟨S850000x64, .f32⟩
  | 9 => ⟨S850000x1, .f32⟩
  | 10 => ⟨S850000x64, .f32⟩
  | 11 => ⟨S850000x64, .f32⟩
  | 12 => ⟨S_, .f32⟩
  | 13 => ⟨S50000x64, .f32⟩
  | 14 => ⟨S850000x1, .i32⟩
  | 15 => ⟨S50000x64, .f32⟩
  | 16 => ⟨S1x64, .f32⟩
  | 17 => ⟨S50000x64, .f32⟩
  | 18 => ⟨S50000x64, .f32⟩
  | 19 => ⟨S_, .f32⟩
  | 20 => ⟨S50000, .f32⟩
  | 21 => ⟨S_, .f32⟩
  | 22 => ⟨S50000, .f32⟩
  | 23 => ⟨S50000, .f32⟩
  | 24 => ⟨S50000x1, .f32⟩
  | 25 => ⟨S50000x64, .f32⟩
  | 26 => ⟨S50000x64, .f32⟩
  | 27 => ⟨S50000x64, .f32⟩
  | 28 => ⟨S_, .f32⟩
  | 29 => ⟨S50000, .f32⟩
  | 30 => ⟨S50000x1, .f32⟩
  | 31 => ⟨S50000x1, .f32⟩
  | 32 => ⟨S50000x64, .f32⟩
  | 33 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_c_9 : Ref sig .tc := ⟨.hbm, 67, rfl⟩
abbrev main_v48 : Ref sig .tc := ⟨.hbm, 68, rfl⟩
abbrev main_v49 : Ref sig .tc := ⟨.hbm, 69, rfl⟩
abbrev main_c_10 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_c_11 : Ref sig .tc := ⟨.hbm, 76, rfl⟩
abbrev main_v55 : Ref sig .tc := ⟨.hbm, 77, rfl⟩
abbrev main_v56 : Ref sig .tc := ⟨.hbm, 78, rfl⟩
abbrev main_c_12 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_c_13 : Ref sig .tc := ⟨.hbm, 86, rfl⟩
abbrev main_v63 : Ref sig .tc := ⟨.hbm, 87, rfl⟩
abbrev main_v64 : Ref sig .tc := ⟨.hbm, 88, rfl⟩
abbrev main_c_14 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_15 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_call1_cst : Ref sig .tc := ⟨.hbm, 105, rfl⟩
abbrev main_call1_v0 : Ref sig .tc := ⟨.hbm, 106, rfl⟩
abbrev main_v79 : Ref sig .tc := ⟨.hbm, 107, rfl⟩
abbrev main_v80 : Ref sig .tc := ⟨.hbm, 108, rfl⟩
abbrev main_c_16 : Ref sig .tc := ⟨.hbm, 109, rfl⟩
abbrev main_v81 : Ref sig .tc := ⟨.hbm, 110, rfl⟩
abbrev main_v82 : Ref sig .tc := ⟨.hbm, 111, rfl⟩
abbrev main_c_17 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_c_18 : Ref sig .tc := ⟨.hbm, 118, rfl⟩
abbrev main_v88 : Ref sig .tc := ⟨.hbm, 119, rfl⟩
abbrev main_v89 : Ref sig .tc := ⟨.hbm, 120, rfl⟩
abbrev main_c_19 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_c_20 : Ref sig .tc := ⟨.hbm, 128, rfl⟩
abbrev main_v96 : Ref sig .tc := ⟨.hbm, 129, rfl⟩
abbrev main_v97 : Ref sig .tc := ⟨.hbm, 130, rfl⟩
abbrev main_c_21 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_cst_22 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_call2_cst : Ref sig .tc := ⟨.hbm, 147, rfl⟩
abbrev main_call2_v0 : Ref sig .tc := ⟨.hbm, 148, rfl⟩
abbrev main_call2_cst_0 : Ref sig .tc := ⟨.hbm, 149, rfl⟩
abbrev main_call2_v1 : Ref sig .tc := ⟨.hbm, 150, rfl⟩
abbrev main_call2_v2 : Ref sig .tc := ⟨.hbm, 151, rfl⟩
abbrev main_call2_v3 : Ref sig .tc := ⟨.hbm, 152, rfl⟩
abbrev main_call2_v4 : Ref sig .tc := ⟨.hbm, 153, rfl⟩
abbrev main_call2_v5 : Ref sig .tc := ⟨.hbm, 154, rfl⟩
abbrev main_call2_v6 : Ref sig .tc := ⟨.hbm, 155, rfl⟩
abbrev main_call2_cst_1 : Ref sig .tc := ⟨.hbm, 156, rfl⟩
abbrev main_call2_v7 : Ref sig .tc := ⟨.hbm, 157, rfl⟩
abbrev main_call2_v8 : Ref sig .tc := ⟨.hbm, 158, rfl⟩
abbrev main_call2_v9 : Ref sig .tc := ⟨.hbm, 159, rfl⟩
abbrev main_call2_v10 : Ref sig .tc := ⟨.hbm, 160, rfl⟩
abbrev main_v112 : Ref sig .tc := ⟨.hbm, 161, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  h_S_ : 0 < S_.numel
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  scatter_S50000_S850000x1_S850000_n_0_0_1_wf : ScatterDims.WF S50000 S850000x1 S850000 [] [0] [0] 1
  dot_S50000x128_S128x128_S50000x128_1_0_0_1_n_n_wf : DotDims.WF S50000x128 S128x128 S50000x128 [1] [0] [0] [1] [] []
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.RefOpSlices.lean ====
/- The reference's 156 host operations (the literal list `ops` of its run module, one operation a line), cut into
   consecutive lists; each line is that module's line, unchanged. A table for the stage-by-stage reading; no argument is here. -/
import proofs.«176027_j23648089931788_1_alg».proof.Proof.RefRun

noncomputable section

namespace Cert.ReferenceIdeal.Slices

open Cert.ReferenceIdeal Cert.ReferenceIdeal.Gen Idealize.ShloMosaic Idealize.ShloMosaic.TcCoe Idealize.SL.Sem Idealize.ShloMosaic.StableHlo

variable {F : FTy → Type} [FloatOps F]

/-- Operations 0 to 20 of @main. -/
abbrev graphOps : List (HloOp τ sig (Elt F)) :=
  [ nullary main_v0 (iotaInDim S50000 32 0),
    unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v7 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S850000x1 ![0] bcast_S850000_S850000x1_0 : (⟨S850000, .i32⟩ : BufTy).Contents (Elt F) → (⟨S850000x1, .i32⟩ : BufTy).Contents (Elt F)),
    ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf (F := F) .ogt : (⟨S50000, .f32⟩ : BufTy).Contents (Elt F) → (⟨S50000, .f32⟩ : BufTy).Contents (Elt F) → (⟨S50000, .i1⟩ : BufTy).Contents (Elt F)),
    unary main_v10 main_v13 (Host.rsqrt : (⟨S50000, .f32⟩ : BufTy).Contents (Elt F) → (⟨S50000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v12) (TRef.of (T := ⟨S50000, .f32⟩) main_v13) (TRef.of (T := ⟨S50000, .f32⟩) main_call0_v1) (TRef.of (T := ⟨S50000, .f32⟩) main_v14) select ]

/-- Operations 21 to 59 of @main. -/
abbrev layer1Ops : List (HloOp τ sig (Elt F)) :=
  [ binary main_arg0 main_arg2 main_v15 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c (constantI S_ 32 0#32),
    unary main_c main_v16 (broadcastInDim S850000 ![] bcast_S_S850000 : (⟨S_, .i32⟩ : BufTy).Contents (Elt F) → (⟨S850000, .i32⟩ : BufTy).Contents (Elt F)),
    binary main_v3 main_v16 main_v17 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v18 (broadcastInDim S850000 ![] bcast_S_S850000 : (⟨S_, .i32⟩ : BufTy).Contents (Elt F) → (⟨S850000, .i32⟩ : BufTy).Contents (Elt F)),
    binary main_v3 main_v18 main_v19 (addi : (⟨S850000, .i32⟩ : BufTy).Contents (Elt F) → (⟨S850000, .i32⟩ : BufTy).Contents (Elt F) → (⟨S850000, .i32⟩ : BufTy).Contents (Elt F)),
    ternary main_v17 main_v19 main_v3 main_v20 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v20 main_v21 (broadcastInDim S850000x1 ![0] bcast_S850000_S850000x1_0 : (⟨S850000, .i32⟩ : BufTy).Contents (Elt F) → (⟨S850000x1, .i32⟩ : BufTy).Contents (Elt F)),
    binary main_v14 main_v21 main_v22 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_4 (constantI S_ 32 0#32),
    unary main_c_4 main_v23 (broadcastInDim S850000 ![] bcast_S_S850000 : (⟨S_, .i32⟩ : BufTy).Contents (Elt F) → (⟨S850000, .i32⟩ : BufTy).Contents (Elt F)),
    binary main_v6 main_v23 main_v24 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v25 (broadcastInDim S850000 ![] bcast_S_S850000 : (⟨S_, .i32⟩ : BufTy).Contents (Elt F) → (⟨S850000, .i32⟩ : BufTy).Contents (Elt F)),
    binary main_v6 main_v25 main_v26 (addi : (⟨S850000, .i32⟩ : BufTy).Contents (Elt F) → (⟨S850000, .i32⟩ : BufTy).Contents (Elt F) → (⟨S850000, .i32⟩ : BufTy).Contents (Elt F)),
    ternary main_v24 main_v26 main_v6 main_v27 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v27 main_v28 (broadcastInDim S850000x1 ![0] bcast_S850000_S850000x1_0 : (⟨S850000, .i32⟩ : BufTy).Contents (Elt F) → (⟨S850000x1, .i32⟩ : BufTy).Contents (Elt F)),
    binary main_v14 main_v28 main_v29 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v22 main_v29 main_v30 (mulf : (⟨S850000, .f32⟩ : BufTy).Contents (Elt F) → (⟨S850000, .f32⟩ : BufTy).Contents (Elt F) → (⟨S850000, .f32⟩ : BufTy).Contents (Elt F)),
    nullary main_c_6 (constantI S_ 32 0#32),
    unary main_c_6 main_v31 (broadcastInDim S850000 ![] bcast_S_S850000 : (⟨S_, .i32⟩ : BufTy).Contents (Elt F) → (⟨S850000, .i32⟩ : BufTy).Contents (Elt F)),
    binary main_v3 main_v31 main_v32 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v33 (broadcastInDim S850000 ![] bcast_S_S850000 : (⟨S_, .i32⟩ : BufTy).Contents (Elt F) → (⟨S850000, .i32⟩ : BufTy).Contents (Elt F)),
    binary main_v3 main_v33 main_v34 (addi : (⟨S850000, .i32⟩ : BufTy).Contents (Elt F) → (⟨S850000, .i32⟩ : BufTy).Contents (Elt F) → (⟨S850000, .i32⟩ : BufTy).Contents (Elt F)),
    ternary main_v32 main_v34 main_v3 main_v35 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v35 main_v36 (broadcastInDim S850000x1 ![0] bcast_S850000_S850000x1_0 : (⟨S850000, .i32⟩ : BufTy).Contents (Elt F) → (⟨S850000x1, .i32⟩ : BufTy).Contents (Elt F)),
    binary main_v15 main_v36 main_v37 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v30 main_v38 (broadcastInDim S850000x1 ![0] bcast_S850000_S850000x1_0 : (⟨S850000, .f32⟩ : BufTy).Contents (Elt F) → (⟨S850000x1, .f32⟩ : BufTy).Contents (Elt F)),
    unary main_v38 main_v39 (broadcastInDim S850000x128 ![0, 1] bcast_S850000x1_S850000x128_0_1 : (⟨S850000x1, .f32⟩ : BufTy).Contents (Elt F) → (⟨S850000x128, .f32⟩ : BufTy).Contents (Elt F)),
    binary main_v37 main_v39 main_v40 (mulf : (⟨S850000x128, .f32⟩ : BufTy).Contents (Elt F) → (⟨S850000x128, .f32⟩ : BufTy).Contents (Elt F) → (⟨S850000x128, .f32⟩ : BufTy).Contents (Elt F)),
    nullary main_cst_8 (constant S_ .f32 0x00000000#32),
    unary main_cst_8 main_v41 (broadcastInDim S50000x128 ![] bcast_S_S50000x128 : (⟨S_, .f32⟩ : BufTy).Contents (Elt F) → (⟨S50000x128, .f32⟩ : BufTy).Contents (Elt F)),
    unary main_v6 main_v42 (broadcastInDim S850000x1 ![0] bcast_S850000_S850000x1_0 : (⟨S850000, .i32⟩ : BufTy).Contents (Elt F) → (⟨S850000x1, .i32⟩ : BufTy).Contents (Elt F)),
    ternary main_v41 main_v42 main_v40 main_v43 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S50000x128 ![0, 1] bcast_S1x128_S50000x128_0_1 : (⟨S1x128, .f32⟩ : BufTy).Contents (Elt F) → (⟨S50000x128, .f32⟩ : BufTy).Contents (Elt F)),
    binary main_v43 main_v45 main_v46 (addf : (⟨S50000x128, .f32⟩ : BufTy).Contents (Elt F) → (⟨S50000x128, .f32⟩ : BufTy).Contents (Elt F) → (⟨S50000x128, .f32⟩ : BufTy).Contents (Elt F)) ]

/-- Operations 60 to 98 of @main. -/
abbrev layer2Ops : List (HloOp τ sig (Elt F)) :=
  [ binary main_v46 main_arg2 main_v47 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_9 (constantI S_ 32 0#32),
    unary main_c_9 main_v48 (broadcastInDim S850000 ![] bcast_S_S850000 : (⟨S_, .i32⟩ : BufTy).Contents (Elt F) → (⟨S850000, .i32⟩ : BufTy).Contents (Elt F)),
    binary main_v3 main_v48 main_v49 (cmpi .slt : (⟨S850000, .i32⟩ : BufTy).Contents (Elt F) → (⟨S850000, .i32⟩ : BufTy).Contents (Elt F) → (⟨S850000, .i1⟩ : BufTy).Contents (Elt F)),
    nullary main_c_10 (constantI S_ 32 50000#32),
    unary main_c_10 main_v50 (broadcastInDim S850000 ![] bcast_S_S850000 : (⟨S_, .i32⟩ : BufTy).Contents (Elt F) → (⟨S850000, .i32⟩ : BufTy).Contents (Elt F)),
    binary main_v3 main_v50 main_v51 (addi : (⟨S850000, .i32⟩ : BufTy).Contents (Elt F) → (⟨S850000, .i32⟩ : BufTy).Contents (Elt F) → (⟨S850000, .i32⟩ : BufTy).Contents (Elt F)),
    ternary main_v49 main_v51 main_v3 main_v52 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v52 main_v53 (broadcastInDim S850000x1 ![0] bcast_S850000_S850000x1_0 : (⟨S850000, .i32⟩ : BufTy).Contents (Elt F) → (⟨S850000x1, .i32⟩ : BufTy).Contents (Elt F)),
    binary main_v14 main_v53 main_v54 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_11 (constantI S_ 32 0#32),
    unary main_c_11 main_v55 (broadcastInDim S850000 ![] bcast_S_S850000 : (⟨S_, .i32⟩ : BufTy).Contents (Elt F) → (⟨S850000, .i32⟩ : BufTy).Contents (Elt F)),
    binary main_v6 main_v55 main_v56 (cmpi .slt : (⟨S850000, .i32⟩ : BufTy).Contents (Elt F) → (⟨S850000, .i32⟩ : BufTy).Contents (Elt F) → (⟨S850000, .i1⟩ : BufTy).Contents (Elt F)),
    nullary main_c_12 (constantI S_ 32 50000#32),
    unary main_c_12 main_v57 (broadcastInDim S850000 ![] bcast_S_S850000 : (⟨S_, .i32⟩ : BufTy).Contents (Elt F) → (⟨S850000, .i32⟩ : BufTy).Contents (Elt F)),
    binary main_v6 main_v57 main_v58 (addi : (⟨S850000, .i32⟩ : BufTy).Contents (Elt F) → (⟨S850000, .i32⟩ : BufTy).Contents (Elt F) → (⟨S850000, .i32⟩ : BufTy).Contents (Elt F)),
    ternary main_v56 main_v58 main_v6 main_v59 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v59 main_v60 (broadcastInDim S850000x1 ![0] bcast_S850000_S850000x1_0 : (⟨S850000, .i32⟩ : BufTy).Contents (Elt F) → (⟨S850000x1, .i32⟩ : BufTy).Contents (Elt F)),
    binary main_v14 main_v60 main_v61 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v54 main_v61 main_v62 (mulf : (⟨S850000, .f32⟩ : BufTy).Contents (Elt F) → (⟨S850000, .f32⟩ : BufTy).Contents (Elt F) → (⟨S850000, .f32⟩ : BufTy).Contents (Elt F)),
    nullary main_c_13 (constantI S_ 32 0#32),
    unary main_c_13 main_v63 (broadcastInDim S850000 ![] bcast_S_S850000 : (⟨S_, .i32⟩ : BufTy).Contents (Elt F) → (⟨S850000, .i32⟩ : BufTy).Contents (Elt F)),
    binary main_v3 main_v63 main_v64 (cmpi .slt : (⟨S850000, .i32⟩ : BufTy).Contents (Elt F) → (⟨S850000, .i32⟩ : BufTy).Contents (Elt F) → (⟨S850000, .i1⟩ : BufTy).Contents (Elt F)),
    nullary main_c_14 (constantI S_ 32 50000#32),
    unary main_c_14 main_v65 (broadcastInDim S850000 ![] bcast_S_S850000 : (⟨S_, .i32⟩ : BufTy).Contents (Elt F) → (⟨S850000, .i32⟩ : BufTy).Contents (Elt F)),
    binary main_v3 main_v65 main_v66 (addi : (⟨S850000, .i32⟩ : BufTy).Contents (Elt F) → (⟨S850000, .i32⟩ : BufTy).Contents (Elt F) → (⟨S850000, .i32⟩ : BufTy).Contents (Elt F)),
    ternary main_v64 main_v66 main_v3 main_v67 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v67 main_v68 (broadcastInDim S850000x1 ![0] bcast_S850000_S850000x1_0 : (⟨S850000, .i32⟩ : BufTy).Contents (Elt F) → (⟨S850000x1, .i32⟩ : BufTy).Contents (Elt F)),
    binary main_v47 main_v68 main_v69 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v62 main_v70 (broadcastInDim S850000x1 ![0] bcast_S850000_S850000x1_0 : (⟨S850000, .f32⟩ : BufTy).Contents (Elt F) → (⟨S850000x1, .f32⟩ : BufTy).Contents (Elt F)),
    unary main_v70 main_v71 (broadcastInDim S850000x128 ![0, 1] bcast_S850000x1_S850000x128_0_1 : (⟨S850000x1, .f32⟩ : BufTy).Contents (Elt F) → (⟨S850000x128, .f32⟩ : BufTy).Contents (Elt F)),
    binary main_v69 main_v71 main_v72 (mulf : (⟨S850000x128, .f32⟩ : BufTy).Contents (Elt F) → (⟨S850000x128, .f32⟩ : BufTy).Contents (Elt F) → (⟨S850000x128, .f32⟩ : BufTy).Contents (Elt F)),
    nullary main_cst_15 (constant S_ .f32 0x00000000#32),
    unary main_cst_15 main_v73 (broadcastInDim S50000x128 ![] bcast_S_S50000x128 : (⟨S_, .f32⟩ : BufTy).Contents (Elt F) → (⟨S50000x128, .f32⟩ : BufTy).Contents (Elt F)),
    unary main_v6 main_v74 (broadcastInDim S850000x1 ![0] bcast_S850000_S850000x1_0 : (⟨S850000, .i32⟩ : BufTy).Contents (Elt F) → (⟨S850000x1, .i32⟩ : BufTy).Contents (Elt F)),
    ternary main_v73 main_v74 main_v72 main_v75 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg3 main_v76 (broadcastInDim S1x128 ![1] bcast_S128_S1x128_1 : (⟨S128, .f32⟩ : BufTy).Contents (Elt F) → (⟨S1x128, .f32⟩ : BufTy).Contents (Elt F)),
    unary main_v76 main_v77 (broadcastInDim S50000x128 ![0, 1] bcast_S1x128_S50000x128_0_1 : (⟨S1x128, .f32⟩ : BufTy).Contents (Elt F) → (⟨S50000x128, .f32⟩ : BufTy).Contents (Elt F)),
    binary main_v75 main_v77 main_v78 (addf : (⟨S50000x128, .f32⟩ : BufTy).Contents (Elt F) → (⟨S50000x128, .f32⟩ : BufTy).Contents (Elt F) → (⟨S50000x128, .f32⟩ : BufTy).Contents (Elt F)) ]

/-- Operations 99 to 140 of @main. -/
abbrev layer3Ops : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v78) (TRef.of (T := ⟨S50000x128, .f32⟩) main_call1_v0) (TRef.of (T := ⟨S50000x128, .f32⟩) main_v79) maximumf,
    binary main_v79 main_arg4 main_v80 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    nullary main_c_16 (constantI S_ 32 0#32),
    unary main_c_16 main_v81 (broadcastInDim S850000 ![] bcast_S_S850000 : (⟨S_, .i32⟩ : BufTy).Contents (Elt F) → (⟨S850000, .i32⟩ : BufTy).Contents (Elt F)),
    binary main_v3 main_v81 main_v82 (cmpi .slt : (⟨S850000, .i32⟩ : BufTy).Contents (Elt F) → (⟨S850000, .i32⟩ : BufTy).Contents (Elt F) → (⟨S850000, .i1⟩ : BufTy).Contents (Elt F)),
    nullary main_c_17 (constantI S_ 32 50000#32),
    unary main_c_17 main_v83 (broadcastInDim S850000 ![] bcast_S_S850000 : (⟨S_, .i32⟩ : BufTy).Contents (Elt F) → (⟨S850000, .i32⟩ : BufTy).Contents (Elt F)),
    binary main_v3 main_v83 main_v84 (addi : (⟨S850000, .i32⟩ : BufTy).Contents (Elt F) → (⟨S850000, .i32⟩ : BufTy).Contents (Elt F) → (⟨S850000, .i32⟩ : BufTy).Contents (Elt F)),
    ternary main_v82 main_v84 main_v3 main_v85 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v85 main_v86 (broadcastInDim S850000x1 ![0] bcast_S850000_S850000x1_0 : (⟨S850000, .i32⟩ : BufTy).Contents (Elt F) → (⟨S850000x1, .i32⟩ : BufTy).Contents (Elt F)),
    binary main_v14 main_v86 main_v87 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_18 (constantI S_ 32 0#32),
    unary main_c_18 main_v88 (broadcastInDim S850000 ![] bcast_S_S850000 : (⟨S_, .i32⟩ : BufTy).Contents (Elt F) → (⟨S850000, .i32⟩ : BufTy).Contents (Elt F)),
    binary main_v6 main_v88 main_v89 (cmpi .slt : (⟨S850000, .i32⟩ : BufTy).Contents (Elt F) → (⟨S850000, .i32⟩ : BufTy).Contents (Elt F) → (⟨S850000, .i1⟩ : BufTy).Contents (Elt F)),
    nullary main_c_19 (constantI S_ 32 50000#32),
    unary main_c_19 main_v90 (broadcastInDim S850000 ![] bcast_S_S850000 : (⟨S_, .i32⟩ : BufTy).Contents (Elt F) → (⟨S850000, .i32⟩ : BufTy).Contents (Elt F)),
    binary main_v6 main_v90 main_v91 (addi : (⟨S850000, .i32⟩ : BufTy).Contents (Elt F) → (⟨S850000, .i32⟩ : BufTy).Contents (Elt F) → (⟨S850000, .i32⟩ : BufTy).Contents (Elt F)),
    ternary main_v89 main_v91 main_v6 main_v92 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v92 main_v93 (broadcastInDim S850000x1 ![0] bcast_S850000_S850000x1_0 : (⟨S850000, .i32⟩ : BufTy).Contents (Elt F) → (⟨S850000x1, .i32⟩ : BufTy).Contents (Elt F)),
    binary main_v14 main_v93 main_v94 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v87 main_v94 main_v95 (mulf : (⟨S850000, .f32⟩ : BufTy).Contents (Elt F) → (⟨S850000, .f32⟩ : BufTy).Contents (Elt F) → (⟨S850000, .f32⟩ : BufTy).Contents (Elt F)),
    nullary main_c_20 (constantI S_ 32 0#32),
    unary main_c_20 main_v96 (broadcastInDim S850000 ![] bcast_S_S850000 : (⟨S_, .i32⟩ : BufTy).Contents (Elt F) → (⟨S850000, .i32⟩ : BufTy).Contents (Elt F)),
    binary main_v3 main_v96 main_v97 (cmpi .slt : (⟨S850000, .i32⟩ : BufTy).Contents (Elt F) → (⟨S850000, .i32⟩ : BufTy).Contents (Elt F) → (⟨S850000, .i1⟩ : BufTy).Contents (Elt F)),
    nullary main_c_21 (constantI S_ 32 50000#32),
    unary main_c_21 main_v98 (broadcastInDim S850000 ![] bcast_S_S850000 : (⟨S_, .i32⟩ : BufTy).Contents (Elt F) → (⟨S850000, .i32⟩ : BufTy).Contents (Elt F)),
    binary main_v3 main_v98 main_v99 (addi : (⟨S850000, .i32⟩ : BufTy).Contents (Elt F) → (⟨S850000, .i32⟩ : BufTy).Contents (Elt F) → (⟨S850000, .i32⟩ : BufTy).Contents (Elt F)),
    ternary main_v97 main_v99 main_v3 main_v100 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v100 main_v101 (broadcastInDim S850000x1 ![0] bcast_S850000_S850000x1_0 : (⟨S850000, .i32⟩ : BufTy).Contents (Elt F) → (⟨S850000x1, .i32⟩ : BufTy).Contents (Elt F)),
    binary main_v80 main_v101 main_v102 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    unary main_v95 main_v103 (broadcastInDim S850000x1 ![0] bcast_S850000_S850000x1_0 : (⟨S850000, .f32⟩ : BufTy).Contents (Elt F) → (⟨S850000x1, .f32⟩ : BufTy).Contents (Elt F)),
    unary main_v103 main_v104 (broadcastInDim S850000x64 ![0, 1] bcast_S850000x1_S850000x64_0_1 : (⟨S850000x1, .f32⟩ : BufTy).Contents (Elt F) → (⟨S850000x64, .f32⟩ : BufTy).Contents (Elt F)),
    binary main_v102 main_v104 main_v105 (mulf : (⟨S850000x64, .f32⟩ : BufTy).Contents (Elt F) → (⟨S850000x64, .f32⟩ : BufTy).Contents (Elt F) → (⟨S850000x64, .f32⟩ : BufTy).Contents (Elt F)),
    nullary main_cst_22 (constant S_ .f32 0x00000000#32),
    unary main_cst_22 main_v106 (broadcastInDim S50000x64 ![] bcast_S_S50000x64 : (⟨S_, .f32⟩ : BufTy).Contents (Elt F) → (⟨S50000x64, .f32⟩ : BufTy).Contents (Elt F)),
    unary main_v6 main_v107 (broadcastInDim S850000x1 ![0] bcast_S850000_S850000x1_0 : (⟨S850000, .i32⟩ : BufTy).Contents (Elt F) → (⟨S850000x1, .i32⟩ : BufTy).Contents (Elt F)),
    ternary main_v106 main_v107 main_v105 main_v108 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    unary main_arg5 main_v109 (broadcastInDim S1x64 ![1] bcast_S64_S1x64_1 : (⟨S64, .f32⟩ : BufTy).Contents (Elt F) → (⟨S1x64, .f32⟩ : BufTy).Contents (Elt F)),
    unary main_v109 main_v110 (broadcastInDim S50000x64 ![0, 1] bcast_S1x64_S50000x64_0_1 : (⟨S1x64, .f32⟩ : BufTy).Contents (Elt F) → (⟨S50000x64, .f32⟩ : BufTy).Contents (Elt F)),
    binary main_v108 main_v110 main_v111 (addf : (⟨S50000x64, .f32⟩ : BufTy).Contents (Elt F) → (⟨S50000x64, .f32⟩ : BufTy).Contents (Elt F) → (⟨S50000x64, .f32⟩ : BufTy).Contents (Elt F)) ]

/-- Operations 141 to 155 of @main. -/
abbrev headOps : List (HloOp τ sig (Elt F)) :=
  [ TRef.nullary (TRef.of (T := ⟨S_, .f32⟩) main_call2_cst) (constant S_ .f32 0xFF800000#32),
    TRef.binary (TRef.of (T := ⟨S50000x64, .f32⟩) main_v111) (TRef.of (T := ⟨S_, .f32⟩) main_call2_cst) (TRef.of (T := ⟨S50000, .f32⟩) main_call2_v0) (fun x v => Host.reduce FloatOps.maximumf x v reducesTo_S50000x64_S50000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S50000, .f32⟩) main_call2_v1) (broadcastInDim S50000 ![] bcast_S_S50000),
    TRef.binary (TRef.of (T := ⟨S50000, .f32⟩) main_call2_v1) (TRef.of (T := ⟨S50000, .f32⟩) main_call2_v0) (TRef.of (T := ⟨S50000, .f32⟩) main_call2_v2) maximumf,
    TRef.unary (TRef.of (T := ⟨S50000, .f32⟩) main_call2_v2) (TRef.of (T := ⟨S50000x1, .f32⟩) main_call2_v3) (broadcastInDim S50000x1 ![0] bcast_S50000_S50000x1_0),
    TRef.unary (TRef.of (T := ⟨S50000x1, .f32⟩) main_call2_v3) (TRef.of (T := ⟨S50000x64, .f32⟩) main_call2_v4) (broadcastInDim S50000x64 ![0, 1] bcast_S50000x1_S50000x64_0_1),
    TRef.binary (TRef.of (T := ⟨S50000x64, .f32⟩) main_v111) (TRef.of (T := ⟨S50000x64, .f32⟩) main_call2_v4) (TRef.of (T := ⟨S50000x64, .f32⟩) main_call2_v5) subf,
    TRef.unary (TRef.of (T := ⟨S50000x64, .f32⟩) main_call2_v5) (TRef.of (T := ⟨S50000x64, .f32⟩) main_call2_v6) Host.exp,
    TRef.nullary (TRef.of (T := ⟨S_, .f32⟩) main_call2_cst_1) (constant S_ .f32 0x00000000#32),
    TRef.binary (TRef.of (T := ⟨S50000x64, .f32⟩) main_call2_v6) (TRef.of (T := ⟨S_, .f32⟩) main_call2_cst_1) (TRef.of (T := ⟨S50000, .f32⟩) main_call2_v7) (fun x v => Host.reduceAdd x v reducesTo_S50000x64_S50000_d1 h_S_),
    TRef.unary (TRef.of (T := ⟨S50000, .f32⟩) main_call2_v7) (TRef.of (T := ⟨S50000x1, .f32⟩) main_call2_v8) (broadcastInDim S50000x1 ![0] bcast_S50000_S50000x1_0),
    TRef.unary (TRef.of (T := ⟨S50000x1, .f32⟩) main_call2_v8) (TRef.of (T := ⟨S50000x1, .f32⟩) main_call2_v9) Host.log,
    TRef.unary (TRef.of (T := ⟨S50000x1, .f32⟩) main_call2_v9) (TRef.of (T := ⟨S50000x64, .f32⟩) main_call2_v10) (broadcastInDim S50000x64 ![0, 1] bcast_S50000x1_S50000x64_0_1),
    TRef.binary (TRef.of (T := ⟨S50000x64, .f32⟩) main_call2_v5) (TRef.of (T := ⟨S50000x64, .f32⟩) main_call2_v10) (TRef.of (T := ⟨S50000x64, .f32⟩) main_v112) subf ]

end Cert.ReferenceIdeal.Slices

end
-- ==== Proof.RefStages.lean ====
/-
  The host reference's run, read stage by stage.

  The reference is 156 host operations in a row, every buffer written once. Its run ends with each buffer at the fold of
  the operations' results over the launch contents. Read at the result buffer, that fold is the last stage of the
  reference as a function of the six arguments: cut the operations into five slices — the graph data (the endpoints
  with self loops, and d = deg^(-1/2) where the degree is positive), one slice per layer (project, weigh the edges,
  gather, scale, scatter-add, add the bias; the third layer's slice begins with the relu), and the log-softmax head — and
  each slice, from ANY contents in which the values it reads are the earlier stages, leaves the next stage in the buffer
  it writes, while the buffers a later slice still reads (the endpoints, d, the arguments) stay as they were.
-/
import proofs.«176027_j23648089931788_1_alg».proof.Proof.RefRun
import proofs.«176027_j23648089931788_1_alg».proof.Proof.RefRead
import proofs.«176027_j23648089931788_1_alg».proof.Proof.RefOpSlices
import Idealize.ShloMosaic.Lib.StableHlo.Run

set_option maxRecDepth 16384

noncomputable section

namespace Cert.ReferenceIdeal.Stages

open Cert.ReferenceIdeal Cert.ReferenceIdeal.Gen Cert.ReferenceIdeal.Slices
open Idealize.ShloMosaic Idealize.ShloMosaic.TcCoe Idealize.SL.Sem Idealize.ShloMosaic.StableHlo

variable {F : FTy → Type} [FloatOps F]

/-- Running two lists of host operations one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-! ## The five slices of @main's operations

`graphOps` (operations 0–20: the endpoints with self loops, the degrees, d), `layer1Ops` (21–59), `layer2Ops` (60–98),
`layer3Ops` (99–140: the relu, then the third layer) and `headOps` (141–155: the log-softmax) are the operation list cut
in five (Proof/RefOpSlices.lean). -/

theorem ops_cut : (Cert.ReferenceIdeal.ValueP.ops (F := F))
    = graphOps ++ (layer1Ops ++ (layer2Ops ++ (layer3Ops ++ headOps))) := rfl

/-- A slice leaves a buffer alone when none of its operations writes it. -/
local macro "slice_keeps" : tactic => `(tactic| (
  refine StableHlo.after_of_forall_not_mem _ _ (List.forall_iff_forall_mem.mp ?_)
  simp only [layer1Ops, layer2Ops, layer3Ops, graphOps, headOps, List.Forall, StableHlo.nullary_writes, StableHlo.unary_writes, StableHlo.binary_writes,
    StableHlo.ternary_writes, StableHlo.quaternary_writes, StableHlo.reshape_writes, StableHlo.binaryIndexed_writes, Finset.mem_singleton]
  repeat' apply And.intro
  all_goals exact StableHlo.devRef_ne_of_ne (by decide)))

/-- Contents carried to a buffer's own type and back are unchanged (the operations of a function the program calls
    are spelt over typed references, which carry their values so). -/
theorem ofBuf_toBuf {T : BufTy} (x : TRef sig T) (v : T.Contents (Elt F)) : x.ofBuf (x.toBuf v) = v := by
  obtain ⟨r, h, _, _⟩ := x
  subst h
  rfl

variable (Wv : Valuation τ sig (Elt F))

/-! ## The graph data -/

theorem graph_src : after graphOps Wv (Proc.devRef .tc main_v3) = Cert.ReferenceIdeal.ReadP.val_main_v3 (F := F) (Wv (Proc.devRef .tc main_arg1)) := by
  dsimp only [graphOps, layer1Ops, layer2Ops, layer3Ops, headOps]
  after_results_simp
  rfl
theorem graph_dst : after graphOps Wv (Proc.devRef .tc main_v6) = Cert.ReferenceIdeal.ReadP.val_main_v6 (F := F) (Wv (Proc.devRef .tc main_arg1)) := by
  dsimp only [graphOps, layer1Ops, layer2Ops, layer3Ops, headOps]
  after_results_simp
  rfl
theorem graph_dinv : after graphOps Wv (Proc.devRef .tc main_v14) = Cert.ReferenceIdeal.ReadP.val_main_v14 (F := F) (Wv (Proc.devRef .tc main_arg1)) := by
  dsimp only [graphOps, layer1Ops, layer2Ops, layer3Ops, headOps]
  after_results_simp
  rfl

/-! ## The layers and the head, from any contents holding the earlier stages -/

theorem layer1_stage (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F))
    (h0 : Wv (Proc.devRef .tc main_arg0) = x0) (h2 : Wv (Proc.devRef .tc main_arg2) = x2) (h3 : Wv (Proc.devRef .tc main_arg3) = x3)
    (hs : Wv (Proc.devRef .tc main_v3) = Cert.ReferenceIdeal.ReadP.val_main_v3 (F := F) x1) (hd : Wv (Proc.devRef .tc main_v6) = Cert.ReferenceIdeal.ReadP.val_main_v6 (F := F) x1)
    (hi : Wv (Proc.devRef .tc main_v14) = Cert.ReferenceIdeal.ReadP.val_main_v14 (F := F) x1) :
    after layer1Ops Wv (Proc.devRef .tc main_v46) = Cert.ReferenceIdeal.ReadP.val_main_v46 (F := F) x0 x1 x2 x3 := by
  dsimp only [graphOps, layer1Ops, layer2Ops, layer3Ops, headOps]
  after_results_simp
  rw [h0, h2, h3, hs, hd, hi]
  rfl

theorem layer2_stage (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F))
    (hh : Wv (Proc.devRef .tc main_v46) = Cert.ReferenceIdeal.ReadP.val_main_v46 (F := F) x0 x1 x2 x3)
    (h2 : Wv (Proc.devRef .tc main_arg2) = x2) (h3 : Wv (Proc.devRef .tc main_arg3) = x3)
    (hs : Wv (Proc.devRef .tc main_v3) = Cert.ReferenceIdeal.ReadP.val_main_v3 (F := F) x1) (hd : Wv (Proc.devRef .tc main_v6) = Cert.ReferenceIdeal.ReadP.val_main_v6 (F := F) x1)
    (hi : Wv (Proc.devRef .tc main_v14) = Cert.ReferenceIdeal.ReadP.val_main_v14 (F := F) x1) :
    after layer2Ops Wv (Proc.devRef .tc main_v78) = Cert.ReferenceIdeal.ReadP.val_main_v78 (F := F) x0 x1 x2 x3 := by
  dsimp only [graphOps, layer1Ops, layer2Ops, layer3Ops, headOps]
  after_results_simp
  rw [hh, h2, h3, hs, hd, hi]
  rfl

theorem layer3_stage (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F))
    (x4 : (⟨S128x64, .f32⟩ : BufTy).Contents (Elt F)) (x5 : (⟨S64, .f32⟩ : BufTy).Contents (Elt F))
    (hh : Wv (Proc.devRef .tc main_v78) = Cert.ReferenceIdeal.ReadP.val_main_v78 (F := F) x0 x1 x2 x3)
    (h4 : Wv (Proc.devRef .tc main_arg4) = x4) (h5 : Wv (Proc.devRef .tc main_arg5) = x5)
    (hs : Wv (Proc.devRef .tc main_v3) = Cert.ReferenceIdeal.ReadP.val_main_v3 (F := F) x1) (hd : Wv (Proc.devRef .tc main_v6) = Cert.ReferenceIdeal.ReadP.val_main_v6 (F := F) x1)
    (hi : Wv (Proc.devRef .tc main_v14) = Cert.ReferenceIdeal.ReadP.val_main_v14 (F := F) x1) :
    after layer3Ops Wv (Proc.devRef .tc main_v111) = Cert.ReferenceIdeal.ReadP.val_main_v111 (F := F) x0 x1 x2 x3 x4 x5 := by
  dsimp only [graphOps, layer1Ops, layer2Ops, layer3Ops, headOps]
  after_results_simp
  rw [hh, h4, h5, hs, hd, hi]
  rfl

theorem head_stage (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F))
    (x4 : (⟨S128x64, .f32⟩ : BufTy).Contents (Elt F)) (x5 : (⟨S64, .f32⟩ : BufTy).Contents (Elt F))
    (hh : Wv (Proc.devRef .tc main_v111) = Cert.ReferenceIdeal.ReadP.val_main_v111 (F := F) x0 x1 x2 x3 x4 x5) :
    after headOps Wv (Proc.devRef .tc main_v112) = Cert.ReferenceIdeal.ReadP.val_main_v112 (F := F) x0 x1 x2 x3 x4 x5 := by
  dsimp only [graphOps, layer1Ops, layer2Ops, layer3Ops, headOps]
  after_results_simp
  simp only [ofBuf_toBuf]
  rw [hh]
  rfl

/-! ## What a slice does not write -/

theorem graph_keeps_arg0 : after graphOps Wv (Proc.devRef .tc main_arg0) = Wv (Proc.devRef .tc main_arg0) := by slice_keeps
theorem graph_keeps_arg2 : after graphOps Wv (Proc.devRef .tc main_arg2) = Wv (Proc.devRef .tc main_arg2) := by slice_keeps
theorem graph_keeps_arg3 : after graphOps Wv (Proc.devRef .tc main_arg3) = Wv (Proc.devRef .tc main_arg3) := by slice_keeps
theorem graph_keeps_arg4 : after graphOps Wv (Proc.devRef .tc main_arg4) = Wv (Proc.devRef .tc main_arg4) := by slice_keeps
theorem graph_keeps_arg5 : after graphOps Wv (Proc.devRef .tc main_arg5) = Wv (Proc.devRef .tc main_arg5) := by slice_keeps
theorem layer1_keeps_arg2 : after layer1Ops Wv (Proc.devRef .tc main_arg2) = Wv (Proc.devRef .tc main_arg2) := by slice_keeps
theorem layer1_keeps_arg3 : after layer1Ops Wv (Proc.devRef .tc main_arg3) = Wv (Proc.devRef .tc main_arg3) := by slice_keeps
theorem layer1_keeps_arg4 : after layer1Ops Wv (Proc.devRef .tc main_arg4) = Wv (Proc.devRef .tc main_arg4) := by slice_keeps
theorem layer1_keeps_arg5 : after layer1Ops Wv (Proc.devRef .tc main_arg5) = Wv (Proc.devRef .tc main_arg5) := by slice_keeps
theorem layer1_keeps_src : after layer1Ops Wv (Proc.devRef .tc main_v3) = Wv (Proc.devRef .tc main_v3) := by slice_keeps
theorem layer1_keeps_dst : after layer1Ops Wv (Proc.devRef .tc main_v6) = Wv (Proc.devRef .tc main_v6) := by slice_keeps
theorem layer1_keeps_dinv : after layer1Ops Wv (Proc.devRef .tc main_v14) = Wv (Proc.devRef .tc main_v14) := by slice_keeps
theorem layer2_keeps_arg4 : after layer2Ops Wv (Proc.devRef .tc main_arg4) = Wv (Proc.devRef .tc main_arg4) := by slice_keeps
theorem layer2_keeps_arg5 : after layer2Ops Wv (Proc.devRef .tc main_arg5) = Wv (Proc.devRef .tc main_arg5) := by slice_keeps
theorem layer2_keeps_src : after layer2Ops Wv (Proc.devRef .tc main_v3) = Wv (Proc.devRef .tc main_v3) := by slice_keeps
theorem layer2_keeps_dst : after layer2Ops Wv (Proc.devRef .tc main_v6) = Wv (Proc.devRef .tc main_v6) := by slice_keeps
theorem layer2_keeps_dinv : after layer2Ops Wv (Proc.devRef .tc main_v14) = Wv (Proc.devRef .tc main_v14) := by slice_keeps

/-! ## The fold is the last stage -/

/-- From any contents, the operations' fold at the result buffer is the reference's last stage of the six arguments. -/
theorem fold_eq_stage :
    after (Cert.ReferenceIdeal.ValueP.ops (F := F)) Wv (Proc.devRef .tc main_v112)
      = Cert.ReferenceIdeal.ReadP.val_main_v112 (F := F) (Wv (Proc.devRef .tc main_arg0)) (Wv (Proc.devRef .tc main_arg1)) (Wv (Proc.devRef .tc main_arg2))
          (Wv (Proc.devRef .tc main_arg3)) (Wv (Proc.devRef .tc main_arg4)) (Wv (Proc.devRef .tc main_arg5)) := by
  rw [ops_cut, after_append, after_append, after_append, after_append]
  -- the contents after each slice
  have e1s := (layer1_keeps_src (after graphOps Wv)).trans (graph_src Wv)
  have e1d := (layer1_keeps_dst (after graphOps Wv)).trans (graph_dst Wv)
  have e1i := (layer1_keeps_dinv (after graphOps Wv)).trans (graph_dinv Wv)
  have h1 := layer1_stage (after graphOps Wv) _ _ _ _ (graph_keeps_arg0 Wv) (graph_keeps_arg2 Wv) (graph_keeps_arg3 Wv)
    (graph_src Wv) (graph_dst Wv) (graph_dinv Wv)
  have h2 := layer2_stage (after layer1Ops (after graphOps Wv)) _ _ _ _ h1
    ((layer1_keeps_arg2 _).trans (graph_keeps_arg2 Wv)) ((layer1_keeps_arg3 _).trans (graph_keeps_arg3 Wv)) e1s e1d e1i
  have h3 := layer3_stage (after layer2Ops (after layer1Ops (after graphOps Wv))) _ _ _ _ _ _ h2
    ((layer2_keeps_arg4 _).trans ((layer1_keeps_arg4 _).trans (graph_keeps_arg4 Wv)))
    ((layer2_keeps_arg5 _).trans ((layer1_keeps_arg5 _).trans (graph_keeps_arg5 Wv)))
    ((layer2_keeps_src _).trans e1s) ((layer2_keeps_dst _).trans e1d) ((layer2_keeps_dinv _).trans e1i)
  exact head_stage _ _ _ _ _ _ _ h3

/-- The reference's run ends with its result at the last stage of its launch arguments. -/
theorem result_stage (m : (ℓ : Loc nD τ sig) → Buf (Elt F) ℓ) (c : Dev nD) :
    Cert.ReferenceIdeal.ValueP.res_main_v112 m c
      = Cert.ReferenceIdeal.ReadP.val_main_v112 (F := F) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) :=
  fold_eq_stage (launchContents m c)

end Cert.ReferenceIdeal.Stages

end
-- ==== Proof.HostStretches.lean ====
/-
  The host side of the kernel's @main, read as the host reference's own stages.

  Both programs build the same graph data from the edge list: the endpoints with one self loop per node appended
  (src, dst), each node's degree as a scatter-add of ones over dst, d = deg^(-1/2) where deg > 0 and 0 elsewhere, and the
  edge weight norm = d[src] · d[dst], negative indices wrapped by the node count before each gather. A layer's tail
  is then the same in both: gather the projected rows at src, scale by norm, scatter-add over dst into zeros, add the
  bias. The kernel computes norm once and the reference once per layer; the three copies are one term.

  So each stretch of host operations between two kernel regions, read at the buffer it produces, IS the reference's
  stage at the same place in the computation, as soon as the projected array it starts from is the reference's: the
  values going in are equal, and the operations are the same operations. These lemmas are stated from ANY contents of
  the buffers, over any float family: nothing in them depends on what the floats are.
-/
import proofs.«176027_j23648089931788_1_alg».proof.Proof.Gen.KernelIdeal.Frame
import proofs.«176027_j23648089931788_1_alg».proof.Proof.RefRead
import Idealize.ShloMosaic.Lib.StableHlo.Run

set_option maxRecDepth 16384

noncomputable section

namespace Cert.KernelIdeal.HostValue

open Cert.KernelIdeal Cert.KernelIdeal.Gen
open Idealize.ShloMosaic Idealize.ShloMosaic.TcCoe Idealize.SL.Sem Idealize.ShloMosaic.StableHlo

/-- A stretch of host operations leaves a buffer alone when none of them writes it. -/
local macro "keep_host " ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-! ## The stretches, over any float family and from any contents -/

section Stretches

variable {F : FTy → Type} [FloatOps F] (Wv : Valuation τ sig (Elt F))

/-- The three stretches before the first region leave src: the edge list's first row with the self loops appended. -/
theorem src_of_edges :
    StableHlo.after hostOps0_2 (StableHlo.after hostOps0_1 (StableHlo.after hostOps0 Wv)) (Proc.devRef .tc main_v3)
      = Cert.ReferenceIdeal.ReadP.val_main_v3 (F := F) (Wv (Proc.devRef .tc main_arg1)) := by
  dsimp only [hostOps0, hostOps0_1, hostOps0_2]
  after_results_simp
  rfl

/-- … and dst: the second row with the self loops appended. -/
theorem dst_of_edges :
    StableHlo.after hostOps0_2 (StableHlo.after hostOps0_1 (StableHlo.after hostOps0 Wv)) (Proc.devRef .tc main_v6)
      = Cert.ReferenceIdeal.ReadP.val_main_v6 (F := F) (Wv (Proc.devRef .tc main_arg1)) := by
  dsimp only [hostOps0, hostOps0_1, hostOps0_2]
  after_results_simp
  rfl

/-- … and the edge weights d[src] · d[dst]. -/
theorem norm_of_edges :
    StableHlo.after hostOps0_2 (StableHlo.after hostOps0_1 (StableHlo.after hostOps0 Wv)) (Proc.devRef .tc main_v29)
      = Cert.ReferenceIdeal.ReadP.val_main_v30 (F := F) (Wv (Proc.devRef .tc main_arg1)) := by
  dsimp only [hostOps0, hostOps0_1, hostOps0_2]
  after_results_simp
  rfl

end Stretches

/-! ## A layer's tail: gather at src, scale by the edge weight, scatter-add over dst, add the bias -/

section Tails

variable {F : FTy → Type} [FloatOps F] (Wv : Valuation τ sig (Elt F))

/-- The reference recomputes the edge weights for its second layer: the same term. -/
theorem norm_second (x1 : (⟨Cert.ReferenceIdeal.S2x800000, .i32⟩ : BufTy).Contents (Elt F)) :
    Cert.ReferenceIdeal.ReadP.val_main_v62 (F := F) x1 = Cert.ReferenceIdeal.ReadP.val_main_v30 (F := F) x1 := rfl

/-- … and for its third. -/
theorem norm_third (x1 : (⟨Cert.ReferenceIdeal.S2x800000, .i32⟩ : BufTy).Contents (Elt F)) :
    Cert.ReferenceIdeal.ReadP.val_main_v95 (F := F) x1 = Cert.ReferenceIdeal.ReadP.val_main_v30 (F := F) x1 := rfl

/-- First layer's tail: from the projected features, the first layer's output. -/
theorem tail_first (x0 : (⟨Cert.ReferenceIdeal.S50000x128, .f32⟩ : BufTy).Contents (Elt F)) (x1 : (⟨Cert.ReferenceIdeal.S2x800000, .i32⟩ : BufTy).Contents (Elt F))
    (x2 : (⟨Cert.ReferenceIdeal.S128x128, .f32⟩ : BufTy).Contents (Elt F)) (x3 : (⟨Cert.ReferenceIdeal.S128, .f32⟩ : BufTy).Contents (Elt F))
    (hP : Wv (Proc.devRef .tc main_v30) = Cert.ReferenceIdeal.ReadP.val_main_v15 (F := F) x0 x2)
    (hs : Wv (Proc.devRef .tc main_v3) = Cert.ReferenceIdeal.ReadP.val_main_v3 (F := F) x1)
    (hd : Wv (Proc.devRef .tc main_v6) = Cert.ReferenceIdeal.ReadP.val_main_v6 (F := F) x1)
    (hn : Wv (Proc.devRef .tc main_v29) = Cert.ReferenceIdeal.ReadP.val_main_v30 (F := F) x1)
    (hb : Wv (Proc.devRef .tc main_arg3) = x3) :
    StableHlo.after hostOps1 Wv (Proc.devRef .tc main_v46) = Cert.ReferenceIdeal.ReadP.val_main_v46 (F := F) x0 x1 x2 x3 := by
  dsimp only [hostOps1]
  after_results_simp
  rw [hP, hs, hd, hn, hb]
  rfl

/-- Second layer's tail. -/
theorem tail_second (x0 : (⟨Cert.ReferenceIdeal.S50000x128, .f32⟩ : BufTy).Contents (Elt F)) (x1 : (⟨Cert.ReferenceIdeal.S2x800000, .i32⟩ : BufTy).Contents (Elt F))
    (x2 : (⟨Cert.ReferenceIdeal.S128x128, .f32⟩ : BufTy).Contents (Elt F)) (x3 : (⟨Cert.ReferenceIdeal.S128, .f32⟩ : BufTy).Contents (Elt F))
    (hP : Wv (Proc.devRef .tc main_v47) = Cert.ReferenceIdeal.ReadP.val_main_v47 (F := F) x0 x1 x2 x3)
    (hs : Wv (Proc.devRef .tc main_v3) = Cert.ReferenceIdeal.ReadP.val_main_v3 (F := F) x1)
    (hd : Wv (Proc.devRef .tc main_v6) = Cert.ReferenceIdeal.ReadP.val_main_v6 (F := F) x1)
    (hn : Wv (Proc.devRef .tc main_v29) = Cert.ReferenceIdeal.ReadP.val_main_v62 (F := F) x1)
    (hb : Wv (Proc.devRef .tc main_arg3) = x3) :
    StableHlo.after hostOps2 Wv (Proc.devRef .tc main_v63) = Cert.ReferenceIdeal.ReadP.val_main_v78 (F := F) x0 x1 x2 x3 := by
  dsimp only [hostOps2]
  after_results_simp
  rw [hP, hs, hd, hn, hb]
  rfl

/-- Third layer's tail: the logits. -/
theorem tail_third (x0 : (⟨Cert.ReferenceIdeal.S50000x128, .f32⟩ : BufTy).Contents (Elt F)) (x1 : (⟨Cert.ReferenceIdeal.S2x800000, .i32⟩ : BufTy).Contents (Elt F))
    (x2 : (⟨Cert.ReferenceIdeal.S128x128, .f32⟩ : BufTy).Contents (Elt F)) (x3 : (⟨Cert.ReferenceIdeal.S128, .f32⟩ : BufTy).Contents (Elt F))
    (x4 : (⟨Cert.ReferenceIdeal.S128x64, .f32⟩ : BufTy).Contents (Elt F)) (x5 : (⟨Cert.ReferenceIdeal.S64, .f32⟩ : BufTy).Contents (Elt F))
    (hP : Wv (Proc.devRef .tc main_v64) = Cert.ReferenceIdeal.ReadP.val_main_v80 (F := F) x0 x1 x2 x3 x4)
    (hs : Wv (Proc.devRef .tc main_v3) = Cert.ReferenceIdeal.ReadP.val_main_v3 (F := F) x1)
    (hd : Wv (Proc.devRef .tc main_v6) = Cert.ReferenceIdeal.ReadP.val_main_v6 (F := F) x1)
    (hn : Wv (Proc.devRef .tc main_v29) = Cert.ReferenceIdeal.ReadP.val_main_v95 (F := F) x1)
    (hb : Wv (Proc.devRef .tc main_arg5) = x5) :
    StableHlo.after hostOps3 Wv (Proc.devRef .tc main_v80) = Cert.ReferenceIdeal.ReadP.val_main_v111 (F := F) x0 x1 x2 x3 x4 x5 := by
  dsimp only [hostOps3]
  after_results_simp
  rw [hP, hs, hd, hn, hb]
  rfl

end Tails

end Cert.KernelIdeal.HostValue

end
-- ==== Proof.MatmulRegions.lean ====
/-
  The three projection regions, each as ONE whole-array value. A projection region walks 25 row blocks of 2000
  rows; at a block the body stores the product of the block's rows with the whole weight matrix, contracted over
  all 128 columns at once into a zero accumulator, the operands first narrowed to bf16 (the identity on the
  extended reals). Entry (r, j) of the array the region leaves is therefore  Σ_k A[r, k] · W[k, j]  of the arrays
  the region found: the host's dot_general of them. The third projection first takes max(·, 0) of its rows.
-/
import proofs.«176027_j23648089931788_1_alg».proof.Proof.Gen.KernelIdeal.Frame
import proofs.«176027_j23648089931788_1_alg».proof.Proof.RefRead
import Idealize.ShloMosaic.Lib.Pipeline.Value
import Idealize.ShloMosaic.Lib.ValueIdx
import Idealize.ShloMosaic.PureOps.Ideal.Laws

set_option maxRecDepth 16384

noncomputable section

namespace Cert.KernelIdeal.RegionValue

open Cert.KernelIdeal Cert.KernelIdeal.Gen
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

open Idealize.ShloMosaic.ValueIdx

/-! ## The zero offsets of a whole-buffer access -/

theorem zeroOffsets : (![0, 0] : Fin 2 → Nat) = fun _ => 0 := funext fun a => by
  match a with
  | ⟨0, _⟩ => rfl
  | ⟨1, _⟩ => rfl

/-! ## The 2000x128 by 128x128 product at an index

The operand indices of the product's dimension numbers, axis by axis: the row operand is read at (row of the
output, contraction index), the column operand at (contraction index, column of the output). -/

theorem lhs128_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs128_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs128_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs128_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The row operand's index for output entry `j` and contraction index `k`: (row of `j`, `k`). -/
abbrev rowAt128 (j : S2000x128.Idx) (k : Fin 128) : S2000x128.Idx := fun a => match a with
  | ⟨0, _⟩ => ⟨(j 0).val, (j 0).isLt⟩
  | ⟨1, _⟩ => ⟨k.val, k.isLt⟩
/-- The column operand's index for output entry `j` and contraction index `k`: (`k`, column of `j`). -/
abbrev colAt128 (j : S2000x128.Idx) (k : Fin 128) : S128x128.Idx := fun a => match a with
  | ⟨0, _⟩ => ⟨k.val, k.isLt⟩
  | ⟨1, _⟩ => ⟨(j 1).val, (j 1).isLt⟩

/-- Into a zero accumulator the product's entry `j` is  Σ_k x[row j, k] · w[k, col j]. -/
theorem matmul128_apply (x : FVec Ideal S2000x128 .bf16) (w : FVec Ideal S128x128 .bf16) (j : S2000x128.Idx) :
    matmul dot_S2000x128_S128x128_S2000x128_1_0_0_1_n_n none x w (constant (F := Ideal) S2000x128 .f32 0x00000000#32) j
      = ∑ k : Fin 128, x (rowAt128 j k) * w (colAt128 j k) := by
  simp only [matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx j ((ValueIdx.contrEquiv1 dot_S2000x128_S128x128_S2000x128_1_0_0_1_n_n 128 rfl rfl).symm k) = rowAt128 j k := funext fun a => Fin.ext (by
    match a with
    | ⟨0, _⟩ => exact lhs128_0 _ _
    | ⟨1, _⟩ => exact (lhs128_1 _ _).trans hk)
  have er : dot_S2000x128_S128x128_S2000x128_1_0_0_1_n_n.rhsIdx j ((ValueIdx.contrEquiv1 dot_S2000x128_S128x128_S2000x128_1_0_0_1_n_n 128 rfl rfl).symm k) = colAt128 j k := funext fun a => Fin.ext (by
    match a with
    | ⟨0, _⟩ => exact (rhs128_0 _ _).trans hk
    | ⟨1, _⟩ => exact rhs128_1 _ _)
  rw [el, er]

/-- An entry of a block's product is the entry of the whole product, once the block's row is the array's row there
    and the block's column the matrix's column. -/
theorem blockEntry128 (x : Vec Ideal S2000x128 .f32) (w : Vec Ideal S128x128 .f32)
    (A : (⟨Cert.ReferenceIdeal.S50000x128, .f32⟩ : BufTy).Contents (Elt Ideal))
    (W : (⟨Cert.ReferenceIdeal.S128x128, .f32⟩ : BufTy).Contents (Elt Ideal))
    (j : S2000x128.Idx) (i : Cert.ReferenceIdeal.S50000x128.Idx)
    (hx : ∀ k : Fin 128, x (rowAt128 j k) = A (Cert.ReferenceIdeal.ReadP.lidx_main_v15 i k))
    (hw : ∀ k : Fin 128, w (colAt128 j k) = W (Cert.ReferenceIdeal.ReadP.ridx_main_v15 i k)) :
    (∑ k : Fin 128, x (rowAt128 j k) * w (colAt128 j k)) = Cert.ReferenceIdeal.ReadP.val_main_v15 (F := Ideal) A W i := by
  rw [Cert.ReferenceIdeal.ReadP.val_main_v15_apply]
  exact Finset.sum_congr rfl fun k _ => by rw [hx k, hw k]

/-! ## Region 0 -/

/-- What the body of region 0 stores, at an entry: narrowing to bf16 is the identity on the extended reals. -/
theorem k0_pay1_apply (x : Vec Ideal S2000x128 .f32) (w : Vec Ideal S128x128 .f32) (j : S2000x128.Idx) :
    k0_pay1 (F := Ideal) x w j = ∑ k : Fin 128, x (rowAt128 j k) * w (colAt128 j k) := by
  unfold k0_pay1
  exact matmul128_apply _ _ j

/-- The printed index maps over the 25 points: the row windows sit at block (t, 0), the weight window at (0, 0). -/
theorem blockIndex0 : ∀ t : Fin cfg0.N, win0_2.index t (0 : Fin 2) = t.val ∧ win0_2.index t (1 : Fin 2) = 0
    ∧ win0_0.index t (0 : Fin 2) = t.val ∧ win0_0.index t (1 : Fin 2) = 0
    ∧ win0_1.index t (0 : Fin 2) = 0 ∧ win0_1.index t (1 : Fin 2) = 0 :=
  (by decide +kernel : ∀ t : Fin grid0.N, _)

/-- What point `t` writes back is block `t` of the product of the arrays the region found. -/
theorem region0_flushed (c : Dev nD) (t : Fin cfg0.N) :
    (dat0 (F := Ideal) V c).flushed 2 t
      = ((cfg0.win 2).blk t).view.read (Elt Ideal)
          (Cert.ReferenceIdeal.ReadP.val_main_v15 (F := Ideal) (V c main_arg0) (V c main_arg2)) := by
  show (cfg0.win 2).cut (grid0.coords t) ((dat0 (F := Ideal) V c).after 2 t) = _
  rw [after0_2]
  unfold out0_2
  rw [View.canon_unit_zero zeroOffsets]
  simp only [View.ld_unit_zero (S := S2000x128) zeroOffsets, View.ld_unit_zero (S := S128x128) zeroOffsets]
  obtain ⟨e20, e21, e00, e01, e10, e11⟩ := blockIndex0 t
  funext j
  show k0_pay1 (F := Ideal) (iblk0 V c 0 t) (iblk0 V c 1 t) ((cfg0.win 2).xinj (grid0.coords t) j)
    = Cert.ReferenceIdeal.ReadP.val_main_v15 (F := Ideal) (V c main_arg0) (V c main_arg2) (((cfg0.win 2).blk t).view.emb j)
  have hj0 : (j 0).val < 2000 := (j 0).isLt
  have hj1 : (j 1).val < 128 := (j 1).isLt
  refine (k0_pay1_apply _ _ _).trans (blockEntry128 _ _ (V c main_arg0) (V c main_arg2) _ _ (fun k => ?_) (fun k => ?_))
  · show V c main_arg0 (((cfg0.win 0).blk t).view.emb (rowAt128 ((cfg0.win 2).xinj (grid0.coords t) j) k)) = _
    refine congrArg (V c main_arg0) (funext fun a => Fin.ext ?_)
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 128 + 1 * k.val = k.val; omega
  · show V c main_arg2 (((cfg0.win 1).blk t).view.emb (colAt128 ((cfg0.win 2).xinj (grid0.coords t) j) k)) = _
    refine congrArg (V c main_arg2) (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega

/-- An index of the output array is in point `t`'s block iff each coordinate is in the block's range. -/
theorem mem_block0 (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v30).slice (win0_2.rect t)).set ↔ _
  rw [View.set_slice_whole, Rect.mem_set_unit]
  exact Iff.rfl

/-- The 25 row blocks tile the array: row `r` is in the block of point `r / 2000`. -/
theorem cover0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 25 := N_0
  refine ⟨⟨(i 0).val / 2000, by rw [hN]; omega⟩, flush0_2 _, ?_⟩
  rw [mem_block0]
  obtain ⟨e20, e21, -, -, -, -⟩ := blockIndex0 ⟨(i 0).val / 2000, by rw [hN]; omega⟩
  intro a
  match a with
  | ⟨0, _⟩ =>
    show win0_2.index _ (0 : Fin 2) * 2000 ≤ (i 0).val ∧ (i 0).val < win0_2.index _ (0 : Fin 2) * 2000 + 2000
    rw [e20]; show (i 0).val / 2000 * 2000 ≤ (i 0).val ∧ (i 0).val < (i 0).val / 2000 * 2000 + 2000; omega
  | ⟨1, _⟩ =>
    show win0_2.index _ (1 : Fin 2) * 128 ≤ (i 1).val ∧ (i 1).val < win0_2.index _ (1 : Fin 2) * 128 + 128
    rw [e21]; omega

/-- First projection: the array region 0 leaves is the dot_general of the node features and the first weight
    matrix as the region found them. -/
theorem region0_value (c : Dev nD) :
    (dat0 (F := Ideal) V c).arrAt 2 cfg0.N
      = Cert.ReferenceIdeal.ReadP.val_main_v15 (F := Ideal) (V c main_arg0) (V c main_arg2) :=
  (dat0 (F := Ideal) V c).arrAt_eq_of_cover 2 _ (fun t _ => region0_flushed V c t) cover0

/-! ## Region 1 -/

/-- What the body of region 1 stores, at an entry: the same product, its rows first passed through a shape cast
    to their own shape. -/
theorem k1_pay1_apply (x : Vec Ideal S2000x128 .f32) (w : Vec Ideal S128x128 .f32) (j : S2000x128.Idx) :
    k1_pay1 (F := Ideal) x w j = ∑ k : Fin 128, x (rowAt128 j k) * w (colAt128 j k) := by
  unfold k1_pay1
  simp only [shapeCast_self]
  exact matmul128_apply _ _ j

/-- The printed index maps over the 25 points: the row windows sit at block (t, 0), the weight window at (0, 0). -/
theorem blockIndex1 : ∀ t : Fin cfg1.N, win1_2.index t (0 : Fin 2) = t.val ∧ win1_2.index t (1 : Fin 2) = 0
    ∧ win1_0.index t (0 : Fin 2) = t.val ∧ win1_0.index t (1 : Fin 2) = 0
    ∧ win1_1.index t (0 : Fin 2) = 0 ∧ win1_1.index t (1 : Fin 2) = 0 :=
  (by decide +kernel : ∀ t : Fin grid1.N, _)

/-- What point `t` writes back is block `t` of the product of the arrays the region found. -/
theorem region1_flushed (c : Dev nD) (t : Fin cfg1.N) :
    (dat1 (F := Ideal) V c).flushed 2 t
      = ((cfg1.win 2).blk t).view.read (Elt Ideal)
          (Cert.ReferenceIdeal.ReadP.val_main_v15 (F := Ideal) (V c main_v46) (V c main_arg2)) := by
  show (cfg1.win 2).cut (grid1.coords t) ((dat1 (F := Ideal) V c).after 2 t) = _
  rw [after1_2]
  unfold out1_2
  rw [View.canon_unit_zero zeroOffsets]
  simp only [View.ld_unit_zero (S := S2000x128) zeroOffsets, View.ld_unit_zero (S := S128x128) zeroOffsets]
  obtain ⟨e20, e21, e00, e01, e10, e11⟩ := blockIndex1 t
  funext j
  show k1_pay1 (F := Ideal) (iblk1 V c 0 t) (iblk1 V c 1 t) ((cfg1.win 2).xinj (grid1.coords t) j)
    = Cert.ReferenceIdeal.ReadP.val_main_v15 (F := Ideal) (V c main_v46) (V c main_arg2) (((cfg1.win 2).blk t).view.emb j)
  have hj0 : (j 0).val < 2000 := (j 0).isLt
  have hj1 : (j 1).val < 128 := (j 1).isLt
  refine (k1_pay1_apply _ _ _).trans (blockEntry128 _ _ (V c main_v46) (V c main_arg2) _ _ (fun k => ?_) (fun k => ?_))
  · show V c main_v46 (((cfg1.win 0).blk t).view.emb (rowAt128 ((cfg1.win 2).xinj (grid1.coords t) j) k)) = _
    refine congrArg (V c main_v46) (funext fun a => Fin.ext ?_)
    match a with
    | ⟨0, _⟩ => show win1_0.index t (0 : Fin 2) * 2000 + 1 * (j 0).val = win1_2.index t (0 : Fin 2) * 2000 + 1 * (j 0).val; omega
    | ⟨1, _⟩ => show win1_0.index t (1 : Fin 2) * 128 + 1 * k.val = k.val; omega
  · show V c main_arg2 (((cfg1.win 1).blk t).view.emb (colAt128 ((cfg1.win 2).xinj (grid1.coords t) j) k)) = _
    refine congrArg (V c main_arg2) (funext fun a => Fin.ext ?_)
    match a with
    | ⟨0, _⟩ => show win1_1.index t (0 : Fin 2) * 128 + 1 * k.val = k.val; omega
    | ⟨1, _⟩ => show win1_1.index t (1 : Fin 2) * 128 + 1 * (j 1).val = win1_2.index t (1 : Fin 2) * 128 + 1 * (j 1).val; omega

/-- An index of the output array is in point `t`'s block iff each coordinate is in the block's range. -/
theorem mem_block1 (t : Fin cfg1.N) (i : S50000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v47).slice (win1_2.rect t)).set ↔ _
  rw [View.set_slice_whole, Rect.mem_set_unit]
  exact Iff.rfl

/-- The 25 row blocks tile the array: row `r` is in the block of point `r / 2000`. -/
theorem cover1 (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 25 := N_1
  refine ⟨⟨(i 0).val / 2000, by rw [hN]; omega⟩, flush1_2 _, ?_⟩
  rw [mem_block1]
  obtain ⟨e20, e21, -, -, -, -⟩ := blockIndex1 ⟨(i 0).val / 2000, by rw [hN]; omega⟩
  intro a
  match a with
  | ⟨0, _⟩ =>
    show win1_2.index _ (0 : Fin 2) * 2000 ≤ (i 0).val ∧ (i 0).val < win1_2.index _ (0 : Fin 2) * 2000 + 2000
    rw [e20]; show (i 0).val / 2000 * 2000 ≤ (i 0).val ∧ (i 0).val < (i 0).val / 2000 * 2000 + 2000; omega
  | ⟨1, _⟩ =>
    show win1_2.index _ (1 : Fin 2) * 128 ≤ (i 1).val ∧ (i 1).val < win1_2.index _ (1 : Fin 2) * 128 + 128
    rw [e21]; omega

/-- Second projection: the same product, of the first layer's output. -/
theorem region1_value (c : Dev nD) :
    (dat1 (F := Ideal) V c).arrAt 2 cfg1.N
      = Cert.ReferenceIdeal.ReadP.val_main_v15 (F := Ideal) (V c main_v46) (V c main_arg2) :=
  (dat1 (F := Ideal) V c).arrAt_eq_of_cover 2 _ (fun t _ => region1_flushed V c t) cover1

/-- The host's third projection as a function of the layer output it starts from: max(h, 0), then the product with
    the second weight matrix. -/
def reluProject (h : (⟨Cert.ReferenceIdeal.S50000x128, .f32⟩ : BufTy).Contents (Elt Ideal))
    (w : (⟨Cert.ReferenceIdeal.S128x64, .f32⟩ : BufTy).Contents (Elt Ideal)) :
    (⟨Cert.ReferenceIdeal.S50000x64, .f32⟩ : BufTy).Contents (Elt Ideal) :=
  Host.dotGeneral (F := Ideal) (φ₁ := .f32) (φ₂ := .f32) Cert.ReferenceIdeal.dot_S50000x128_S128x64_S50000x64_1_0_0_1_n_n none
    (maximumf (F := Ideal) (φ := .f32) h (Cert.ReferenceIdeal.ReadP.val_main_call1_v0 (F := Ideal))) w

/-! ## The 2000x128 by 128x64 product at an index -/

theorem lhs64_0 (i : S2000x64.Idx) (q : dot_S2000x128_S128x64_S2000x64_1_0_0_1_n_n.contr.Idx) :
    (dot_S2000x128_S128x64_S2000x64_1_0_0_1_n_n.lhsIdx i q 0).val = (i 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
theorem lhs64_1 (i : S2000x64.Idx) (q : dot_S2000x128_S128x64_S2000x64_1_0_0_1_n_n.contr.Idx) :
    (dot_S2000x128_S128x64_S2000x64_1_0_0_1_n_n.lhsIdx i q 1).val = (q ⟨0, by decide⟩).val :=
  dot_S2000x128_S128x64_S2000x64_1_0_0_1_n_n.lhsIdx_val_of_single rfl i q
theorem rhs64_0 (i : S2000x64.Idx) (q : dot_S2000x128_S128x64_S2000x64_1_0_0_1_n_n.contr.Idx) :
    (dot_S2000x128_S128x64_S2000x64_1_0_0_1_n_n.rhsIdx i q 0).val = (q ⟨0, by decide⟩).val :=
  dot_S2000x128_S128x64_S2000x64_1_0_0_1_n_n.rhsIdx_val_of_single rfl i q
theorem rhs64_1 (i : S2000x64.Idx) (q : dot_S2000x128_S128x64_S2000x64_1_0_0_1_n_n.contr.Idx) :
    (dot_S2000x128_S128x64_S2000x64_1_0_0_1_n_n.rhsIdx i q 1).val = (i 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- The row operand's index for output entry `j` and contraction index `k`: (row of `j`, `k`). -/
abbrev rowAt64 (j : S2000x64.Idx) (k : Fin 128) : S2000x128.Idx := fun a => match a with
  | ⟨0, _⟩ => ⟨(j 0).val, (j 0).isLt⟩
  | ⟨1, _⟩ => ⟨k.val, k.isLt⟩
/-- The column operand's index for output entry `j` and contraction index `k`: (`k`, column of `j`). -/
abbrev colAt64 (j : S2000x64.Idx) (k : Fin 128) : S128x64.Idx := fun a => match a with
  | ⟨0, _⟩ => ⟨k.val, k.isLt⟩
  | ⟨1, _⟩ => ⟨(j 1).val, (j 1).isLt⟩

/-- Into a zero accumulator the product's entry `j` is  Σ_k x[row j, k] · w[k, col j]. -/
theorem matmul64_apply (x : FVec Ideal S2000x128 .bf16) (w : FVec Ideal S128x64 .bf16) (j : S2000x64.Idx) :
    matmul dot_S2000x128_S128x64_S2000x64_1_0_0_1_n_n none x w (constant (F := Ideal) S2000x64 .f32 0x00000000#32) j
      = ∑ k : Fin 128, x (rowAt64 j k) * w (colAt64 j k) := by
  simp only [matmul]
  rw [Ideal.matmul_constant_zero_apply, ← Equiv.sum_comp (ValueIdx.contrEquiv1 dot_S2000x128_S128x64_S2000x64_1_0_0_1_n_n 128 rfl rfl).symm]
  refine Finset.sum_congr rfl fun k _ => ?_
  have hk := ValueIdx.contrEquiv1_symm_val dot_S2000x128_S128x64_S2000x64_1_0_0_1_n_n 128 rfl rfl k
  have el : dot_S2000x128_S128x64_S2000x64_1_0_0_1_n_n.lhsIdx j ((ValueIdx.contrEquiv1 dot_S2000x128_S128x64_S2000x64_1_0_0_1_n_n 128 rfl rfl).symm k) = rowAt64 j k := funext fun a => Fin.ext (by
    match a with
    | ⟨0, _⟩ => exact lhs64_0 _ _
    | ⟨1, _⟩ => exact (lhs64_1 _ _).trans hk)
  have er : dot_S2000x128_S128x64_S2000x64_1_0_0_1_n_n.rhsIdx j ((ValueIdx.contrEquiv1 dot_S2000x128_S128x64_S2000x64_1_0_0_1_n_n 128 rfl rfl).symm k) = colAt64 j k := funext fun a => Fin.ext (by
    match a with
    | ⟨0, _⟩ => exact (rhs64_0 _ _).trans hk
    | ⟨1, _⟩ => exact rhs64_1 _ _)
  rw [el, er]

/-! ## The host's third projection at an entry -/

/-- The host's 50000x128 by 128x64 product at an entry, for any operands:  Σ_k y[r, k] · w[k, q]. -/
theorem hostProduct64_apply (y : (⟨Cert.ReferenceIdeal.S50000x128, .f32⟩ : BufTy).Contents (Elt Ideal))
    (w : (⟨Cert.ReferenceIdeal.S128x64, .f32⟩ : BufTy).Contents (Elt Ideal)) (i : Cert.ReferenceIdeal.S50000x64.Idx) :
    Host.dotGeneral (F := Ideal) (φ₁ := .f32) (φ₂ := .f32) Cert.ReferenceIdeal.dot_S50000x128_S128x64_S50000x64_1_0_0_1_n_n none y w i
      = ∑ k : Fin 128, y (Cert.ReferenceIdeal.ReadP.lidx_main_v80 i k) * w (Cert.ReferenceIdeal.ReadP.ridx_main_v80 i k) := by
  simp only [Host.dotGeneral]
  rw [Ideal.dotGeneral_apply, ← Equiv.sum_comp (ValueIdx.contrEquiv1 Cert.ReferenceIdeal.dot_S50000x128_S128x64_S50000x64_1_0_0_1_n_n 128 rfl rfl).symm]
  refine Finset.sum_congr rfl fun k _ => ?_
  have hk := ValueIdx.contrEquiv1_symm_val Cert.ReferenceIdeal.dot_S50000x128_S128x64_S50000x64_1_0_0_1_n_n 128 rfl rfl k
  have el : Cert.ReferenceIdeal.dot_S50000x128_S128x64_S50000x64_1_0_0_1_n_n.lhsIdx i ((ValueIdx.contrEquiv1 Cert.ReferenceIdeal.dot_S50000x128_S128x64_S50000x64_1_0_0_1_n_n 128 rfl rfl).symm k) = Cert.ReferenceIdeal.ReadP.lidx_main_v80 i k := funext fun a => Fin.ext (by
    match a with
    | ⟨0, _⟩ => exact Cert.ReferenceIdeal.ReadP.lhs_main_v80_0 _ _
    | ⟨1, _⟩ => exact (Cert.ReferenceIdeal.ReadP.lhs_main_v80_1 _ _).trans hk)
  have er : Cert.ReferenceIdeal.dot_S50000x128_S128x64_S50000x64_1_0_0_1_n_n.rhsIdx i ((ValueIdx.contrEquiv1 Cert.ReferenceIdeal.dot_S50000x128_S128x64_S50000x64_1_0_0_1_n_n 128 rfl rfl).symm k) = Cert.ReferenceIdeal.ReadP.ridx_main_v80 i k := funext fun a => Fin.ext (by
    match a with
    | ⟨0, _⟩ => exact (Cert.ReferenceIdeal.ReadP.rhs_main_v80_0 _ _).trans hk
    | ⟨1, _⟩ => exact Cert.ReferenceIdeal.ReadP.rhs_main_v80_1 _ _)
  rw [el, er]

/-- The host's third projection at an entry:  Σ_k max(h[r, k], 0) · w[k, q], the zero left as its word. -/
theorem reluProject_apply (h : (⟨Cert.ReferenceIdeal.S50000x128, .f32⟩ : BufTy).Contents (Elt Ideal))
    (w : (⟨Cert.ReferenceIdeal.S128x64, .f32⟩ : BufTy).Contents (Elt Ideal)) (i : Cert.ReferenceIdeal.S50000x64.Idx) :
    reluProject h w i
      = ∑ k : Fin 128, max (h (Cert.ReferenceIdeal.ReadP.lidx_main_v80 i k)) (Ideal.ofBits .f32 0x00000000#32)
          * w (Cert.ReferenceIdeal.ReadP.ridx_main_v80 i k) := by
  unfold reluProject
  rw [hostProduct64_apply]
  refine Finset.sum_congr rfl fun k _ => ?_
  rw [maximumf_apply, Cert.ReferenceIdeal.ReadP.val_main_call1_v0_apply, Cert.ReferenceIdeal.ReadP.val_main_call1_cst_apply]
  rfl

/-! ## Region 2 -/

/-- What the body of region 2 stores, at an entry: max(·, 0) of its rows, then the product. -/
theorem k2_pay1_apply (x : Vec Ideal S2000x128 .f32) (w : Vec Ideal S128x64 .f32) (j : S2000x64.Idx) :
    k2_pay1 (F := Ideal) x w j
      = ∑ k : Fin 128, max (x (rowAt64 j k)) (Ideal.ofBits .f32 0x00000000#32) * w (colAt64 j k) := by
  unfold k2_pay1
  simp only [shapeCast_self]
  exact matmul64_apply _ _ j

/-- An entry of a block's max-then-product is the entry of the whole one, once the block's row is the array's row
    there and the block's column the matrix's column. -/
theorem blockEntry64 (x : Vec Ideal S2000x128 .f32) (w : Vec Ideal S128x64 .f32)
    (A : (⟨Cert.ReferenceIdeal.S50000x128, .f32⟩ : BufTy).Contents (Elt Ideal))
    (W : (⟨Cert.ReferenceIdeal.S128x64, .f32⟩ : BufTy).Contents (Elt Ideal))
    (j : S2000x64.Idx) (i : Cert.ReferenceIdeal.S50000x64.Idx)
    (hx : ∀ k : Fin 128, x (rowAt64 j k) = A (Cert.ReferenceIdeal.ReadP.lidx_main_v80 i k))
    (hw : ∀ k : Fin 128, w (colAt64 j k) = W (Cert.ReferenceIdeal.ReadP.ridx_main_v80 i k)) :
    (∑ k : Fin 128, max (x (rowAt64 j k)) (Ideal.ofBits .f32 0x00000000#32) * w (colAt64 j k)) = reluProject A W i := by
  rw [reluProject_apply]
  exact Finset.sum_congr rfl fun k _ => by rw [hx k, hw k]

/-- The printed index maps over the 25 points: the row windows sit at block (t, 0), the weight window at (0, 0). -/
theorem blockIndex2 : ∀ t : Fin cfg2.N, win2_2.index t (0 : Fin 2) = t.val ∧ win2_2.index t (1 : Fin 2) = 0
    ∧ win2_0.index t (0 : Fin 2) = t.val ∧ win2_0.index t (1 : Fin 2) = 0
    ∧ win2_1.index t (0 : Fin 2) = 0 ∧ win2_1.index t (1 : Fin 2) = 0 :=
  (by decide +kernel : ∀ t : Fin grid2.N, _)

/-- What point `t` writes back is block `t` of the host's third projection of the arrays the region found. -/
theorem region2_flushed (c : Dev nD) (t : Fin cfg2.N) :
    (dat2 (F := Ideal) V c).flushed 2 t
      = ((cfg2.win 2).blk t).view.read (Elt Ideal) (reluProject (V c main_v63) (V c main_arg4)) := by
  show (cfg2.win 2).cut (grid2.coords t) ((dat2 (F := Ideal) V c).after 2 t) = _
  rw [after2_2]
  unfold out2_2
  rw [View.canon_unit_zero zeroOffsets]
  simp only [View.ld_unit_zero (S := S2000x128) zeroOffsets, View.ld_unit_zero (S := S128x64) zeroOffsets]
  obtain ⟨e20, e21, e00, e01, e10, e11⟩ := blockIndex2 t
  funext j
  show k2_pay1 (F := Ideal) (iblk2 V c 0 t) (iblk2 V c 1 t) ((cfg2.win 2).xinj (grid2.coords t) j)
    = reluProject (V c main_v63) (V c main_arg4) (((cfg2.win 2).blk t).view.emb j)
  have hj0 : (j 0).val < 2000 := (j 0).isLt
  have hj1 : (j 1).val < 64 := (j 1).isLt
  refine (k2_pay1_apply _ _ _).trans (blockEntry64 _ _ (V c main_v63) (V c main_arg4) _ _ (fun k => ?_) (fun k => ?_))
  · show V c main_v63 (((cfg2.win 0).blk t).view.emb (rowAt64 ((cfg2.win 2).xinj (grid2.coords t) j) k)) = _
    refine congrArg (V c main_v63) (funext fun a => Fin.ext ?_)
    match a with
    | ⟨0, _⟩ => show win2_0.index t (0 : Fin 2) * 2000 + 1 * (j 0).val = win2_2.index t (0 : Fin 2) * 2000 + 1 * (j 0).val; omega
    | ⟨1, _⟩ => show win2_0.index t (1 : Fin 2) * 128 + 1 * k.val = k.val; omega
  · show V c main_arg4 (((cfg2.win 1).blk t).view.emb (colAt64 ((cfg2.win 2).xinj (grid2.coords t) j) k)) = _
    refine congrArg (V c main_arg4) (funext fun a => Fin.ext ?_)
    match a with
    | ⟨0, _⟩ => show win2_1.index t (0 : Fin 2) * 128 + 1 * k.val = k.val; omega
    | ⟨1, _⟩ => show win2_1.index t (1 : Fin 2) * 64 + 1 * (j 1).val = win2_2.index t (1 : Fin 2) * 64 + 1 * (j 1).val; omega

/-- An index of the output array is in point `t`'s block iff each coordinate is in the block's range. -/
theorem mem_block2 (t : Fin cfg2.N) (i : S50000x64.Idx) :
    i ∈ ((cfg2.win 2).blk t).view.set ↔ ∀ a : Fin 2, win2_2.index t a * S2000x64.size a ≤ (i a).val ∧ (i a).val < win2_2.index t a * S2000x64.size a + S2000x64.size a := by
  show i ∈ ((View.whole main_v64).slice (win2_2.rect t)).set ↔ _
  rw [View.set_slice_whole, Rect.mem_set_unit]
  exact Iff.rfl

/-- The 25 row blocks tile the array: row `r` is in the block of point `r / 2000`. -/
theorem cover2 (i : S50000x64.Idx) :
    ∃ t : Fin cfg2.N, (cfg2.win 2).flush t = true ∧ i ∈ ((cfg2.win 2).blk t).view.set := by
  have hi0 : (i 0).val < 50000 := (i 0).isLt
  have hi1 : (i 1).val < 64 := (i 1).isLt
  have hN : cfg2.N = 25 := N_2
  refine ⟨⟨(i 0).val / 2000, by rw [hN]; omega⟩, flush2_2 _, ?_⟩
  rw [mem_block2]
  obtain ⟨e20, e21, -, -, -, -⟩ := blockIndex2 ⟨(i 0).val / 2000, by rw [hN]; omega⟩
  intro a
  match a with
  | ⟨0, _⟩ =>
    show win2_2.index _ (0 : Fin 2) * 2000 ≤ (i 0).val ∧ (i 0).val < win2_2.index _ (0 : Fin 2) * 2000 + 2000
    rw [e20]; show (i 0).val / 2000 * 2000 ≤ (i 0).val ∧ (i 0).val < (i 0).val / 2000 * 2000 + 2000; omega
  | ⟨1, _⟩ =>
    show win2_2.index _ (1 : Fin 2) * 64 ≤ (i 1).val ∧ (i 1).val < win2_2.index _ (1 : Fin 2) * 64 + 64
    rw [e21]; omega

/-- Third projection: the product of max(h, 0) with the second weight matrix. -/
theorem region2_value (c : Dev nD) :
    (dat2 (F := Ideal) V c).arrAt 2 cfg2.N = reluProject (V c main_v63) (V c main_arg4) :=
  (dat2 (F := Ideal) V c).arrAt_eq_of_cover 2 _ (fun t _ => region2_flushed V c t) cover2

end Cert.KernelIdeal.RegionValue

end
-- ==== Proof.LogSoftmaxRegion.lean ====
/-
  The last region as ONE whole-array value: row-wise log-softmax. A block holds 2000 whole rows of 64 logits; the
  body takes a row's maximum M, subtracts it, and subtracts log Σ_j exp(x_j − M). The host computes the same row by
  row, its maximum folded from −∞ and joined once more with −∞ (which changes nothing on the extended reals).
-/
import proofs.«176027_j23648089931788_1_alg».proof.Proof.Gen.KernelIdeal.Frame
import proofs.«176027_j23648089931788_1_alg».proof.Proof.RefRead
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen
open Idealize.ShloMosaic Idealize.ShloMosaic.TcCoe Idealize.SL.Sem
open Idealize.ShloMosaic.Pipeline (Dat Cfg Window)
open Idealize.ShloMosaic.ValueIdx

/-! ## The row-wise log-softmax, as a function of one row

Over any number `n` of rows of 64 entries: `rowMax x p` is the maximum of row `p` folded from −∞ (the f32 word
`0xFF800000`), and `logSoftmaxAt x p j` is `(x[p,j] − M) − log Σ_k exp (x[p,k] − M)` with `M = rowMax x p`. Both read
row `p` of `x` and nothing else (`logSoftmaxAt_congr`). -/

/-- The maximum of row `p`, folded from −∞. -/
def rowMax {n : Nat} (x : (⟨2, ![n, 64]⟩ : Shape).Idx → EReal) (p : Fin n) : EReal :=
  (Finset.univ : Finset (Fin 64)).fold max (Ideal.ofBits .f32 0xFF800000#32) (fun k => x (ix2 p k))

/-- The log-softmax of row `p` at column `j`. -/
def logSoftmaxAt {n : Nat} (x : (⟨2, ![n, 64]⟩ : Shape).Idx → EReal) (p : Fin n) (j : Fin 64) : EReal :=
  (x (ix2 p j) - rowMax x p) - Ideal.log (∑ k : Fin 64, Ideal.exp (x (ix2 p k) - rowMax x p))

/-- Two arrays that agree along a row of each have the same log-softmax there. -/
theorem logSoftmaxAt_congr {n m : Nat} (x : (⟨2, ![n, 64]⟩ : Shape).Idx → EReal) (y : (⟨2, ![m, 64]⟩ : Shape).Idx → EReal)
    (p : Fin n) (r : Fin m) (h : ∀ k : Fin 64, x (ix2 p k) = y (ix2 r k)) (j : Fin 64) :
    logSoftmaxAt x p j = logSoftmaxAt y r j := by
  have hf : (fun k : Fin 64 => x (ix2 p k)) = fun k => y (ix2 r k) := funext h
  unfold logSoftmaxAt rowMax
  rw [hf, h j]
  exact congrArg _ (congrArg _ (Finset.sum_congr rfl fun k _ => by rw [h k]))

/-- Joining −∞ onto an extended real leaves it. -/
theorem max_negInf (y : EReal) : max (Ideal.ofBits .f32 0xFF800000#32) y = y := by
  simp [Ideal.ofBits, Ideal.ieee]

/-! ## The body's payload at an index -/

/-- A vector of 2000 entries viewed as a column reads its entry `p` at `(p, 0)`. -/
theorem column_apply {α : Type} (v : S2000.Idx → α) (h : S2000.ShapeCasts S2000x1) (p : Fin 2000) (z : Fin 1) :
    shapeCast S2000x1 v h (ix2 p z) = v (ix1 p) := by
  refine shapeCast_apply v h (ix2 p z) (ix1 p) ?_
  rw [Shape.rowMajor_val_one, Shape.rowMajor_val_two]
  show p.val = p.val * 1 + z.val
  omega

/-- A column broadcast along the rows reads, at `(p, j)`, the column's entry `(p, 0)`. -/
theorem alongRow_apply {α : Type} (w : S2000x1.Idx → α) (h : S2000x1.Broadcasts S2000x64) (p : Fin 2000) (j : Fin 64) :
    broadcastTo S2000x64 w h (ix2 p j) = w (ix2 p (0 : Fin 1)) := by
  refine broadcastTo_apply w h (ix2 p j) (ix2 p (0 : Fin 1)) fun a => ?_
  match a with
  | ⟨0, _⟩ => rfl
  | ⟨1, _⟩ => rfl

/-- The index a one-axis reduction over the columns inserts is `(p, k)`. -/
theorem lift_row (h : S2000x64.Reduces [1] S2000) (p : Fin 2000) (k : Fin 64) : h.lift (ix1 p) k = ix2 p k :=
  funext fun a => Fin.ext (by match a with | ⟨0, _⟩ => rfl | ⟨1, _⟩ => rfl)

/-- The body's maximum-reduction over the columns, read at row `p`. -/
theorem maxReduce_apply (src : FVec Ideal S2000x64 .f32) (h : S2000x64.Reduces [1] S2000) (hφ : FKind.Formats .f32)
    (hacc : (0xFF800000#32 : BitVec 32) = FKind.maximumf.neutral .f32 hφ) (p : Fin 2000) :
    multiReduction .maximumf [1] S2000 src 0xFF800000#32 h hφ hacc (ix1 p) = rowMax src p := by
  refine (Ideal.multiReduction_maximumf_single src _ h hφ hacc (ix1 p)).trans ?_
  unfold rowMax
  exact congrArg (fun f => Finset.fold max (Ideal.ofBits .f32 0xFF800000#32) f (Finset.univ : Finset (Fin 64)))
    (funext fun k => congrArg src (lift_row h p k))

/-- The body's sum over the columns, read at row `p`. -/
theorem addReduce_apply (src : FVec Ideal S2000x64 .f32) (h : S2000x64.Reduces [1] S2000) (hφ : FKind.Formats .f32)
    (hacc : (0x00000000#32 : BitVec 32) = FKind.add.neutral .f32 hφ) (p : Fin 2000) :
    multiReduction .add [1] S2000 src 0x00000000#32 h hφ hacc (ix1 p) = ∑ k : Fin 64, src (ix2 p k) := by
  refine (Ideal.multiReduction_add_single src _ h hφ hacc (ix1 p)).trans ?_
  exact Finset.sum_congr rfl fun k _ => congrArg src (lift_row h p k)

/-- The exponential and the logarithm of a vector, read at an index. -/
theorem vexp_apply {s : Shape} {φ : FTy} (v : FVec Ideal s φ) (i : s.Idx) : exp v i = Ideal.exp (v i) := rfl
theorem vlog_apply {s : Shape} {φ : FTy} (v : FVec Ideal s φ) (i : s.Idx) : log v i = Ideal.log (v i) := rfl

/-- The row's maximum as the body broadcasts it along the row: at `(p, k)` it is the maximum of row `p`. -/
theorem bcastMax_apply (x : FVec Ideal S2000x64 .f32) (hφ : FKind.Formats .f32)
    (hacc : (0xFF800000#32 : BitVec 32) = FKind.maximumf.neutral .f32 hφ) (p : Fin 2000) (k : Fin 64) :
    broadcastTo S2000x64 (shapeCast S2000x1 (multiReduction .maximumf [1] S2000 x 0xFF800000#32 reduces_S2000x64_S2000 hφ hacc)
      shapeCasts_S2000_S2000x1) broadcasts_S2000x1_S2000x64 (ix2 p k) = rowMax x p :=
  (alongRow_apply _ _ p k).trans ((column_apply _ _ p 0).trans (maxReduce_apply x _ hφ hacc p))

/-- THE PAYLOAD AT `(p, j)`: the log-softmax of the block's row `p` at column `j`. -/
theorem pay_apply (x : Vec Ideal S2000x64 .f32) (p : Fin 2000) (j : Fin 64) :
    k3_pay1 (F := Ideal) x (ix2 p j) = logSoftmaxAt x p j := by
  unfold k3_pay1
  simp only [shapeCast_self]
  unfold logSoftmaxAt
  rw [subf_apply, subf_apply]
  -- both sides are (x[p,j] − M) − log s: the same M, the same s
  refine congrArg₂ (· - ·) (congrArg (x (ix2 p j) - ·) (bcastMax_apply x _ _ p j)) ?_
  refine (alongRow_apply _ _ p j).trans ((vlog_apply _ _).trans (congrArg Ideal.log ?_))
  refine (column_apply _ _ p 0).trans ((addReduce_apply _ _ _ _ p).trans (Finset.sum_congr rfl fun k _ => ?_))
  exact (vexp_apply _ _).trans (congrArg Ideal.exp ((subf_apply _ _ _).trans
    (congrArg (x (ix2 p k) - ·) (bcastMax_apply x _ _ p k))))

/-! ## The host's log-softmax at an index -/

section Reference

open Cert.ReferenceIdeal.ReadP

variable (x0 : (⟨Cert.ReferenceIdeal.S50000x128, .f32⟩ : BufTy).Contents (Elt Ideal)) (x1 : (⟨Cert.ReferenceIdeal.S2x800000, .i32⟩ : BufTy).Contents (Elt Ideal))
  (x2 : (⟨Cert.ReferenceIdeal.S128x128, .f32⟩ : BufTy).Contents (Elt Ideal)) (x3 : (⟨Cert.ReferenceIdeal.S128, .f32⟩ : BufTy).Contents (Elt Ideal))
  (x4 : (⟨Cert.ReferenceIdeal.S128x64, .f32⟩ : BufTy).Contents (Elt Ideal)) (x5 : (⟨Cert.ReferenceIdeal.S64, .f32⟩ : BufTy).Contents (Elt Ideal))

/-- The index the host's one-axis reduction over the columns inserts is `(r, k)`. -/
theorem lift_row_host (h : Cert.ReferenceIdeal.S50000x64.Reduces [1] Cert.ReferenceIdeal.S50000) (r : Fin 50000) (k : Fin 64) :
    h.lift (ix1 r) k = ix2 r k :=
  funext fun a => Fin.ext (by match a with | ⟨0, _⟩ => rfl | ⟨1, _⟩ => rfl)

/-- The host's reduce with `max` from −∞ over the columns of any array `L`, read at row `r`. -/
theorem hostMaxReduce_apply (L : Cert.ReferenceIdeal.S50000x64.Idx → EReal) (init : Cert.ReferenceIdeal.S_.Idx → EReal)
    (hinit : ∀ i, init i = Ideal.ofBits .f32 0xFF800000#32)
    (h' : Cert.ReferenceIdeal.S50000x64.ReducesTo [1] Cert.ReferenceIdeal.S50000) (hu : 0 < Cert.ReferenceIdeal.S_.numel) (r : Fin 50000) :
    Host.reduce (FloatOps.maximumf (F := Ideal) (φ := .f32)) L init h' hu (ix1 r) = rowMax L r := by
  refine (Host.reduce_eq_fold_single (FloatOps.maximumf (F := Ideal) (φ := .f32)) L init h' (by decide) hu (ix1 r)).trans ?_
  rw [hinit]
  unfold rowMax
  exact congrArg (fun f => Finset.fold max (Ideal.ofBits .f32 0xFF800000#32) f (Finset.univ : Finset (Fin 64)))
    (funext fun k => congrArg L (lift_row_host _ r k))

/-- The host's row maximum (its reduce from −∞, joined once more with −∞) is the maximum of the logits' row. -/
theorem ref_rowMax (r : Fin 50000) :
    val_main_call2_v2 (F := Ideal) x0 x1 x2 x3 x4 x5 (ix1 r) = rowMax (val_main_v111 (F := Ideal) x0 x1 x2 x3 x4 x5) r := by
  rw [val_main_call2_v2_apply, val_main_call2_v1_apply, val_main_call2_cst_0_apply, Ideal.maximumf_def, Ideal.ofBits_def,
    max_negInf]
  unfold val_main_call2_v0
  generalize val_main_v111 (F := Ideal) x0 x1 x2 x3 x4 x5 = L
  exact hostMaxReduce_apply L _ (fun i => rfl) _ _ r

/-- The host's shifted logits at `(r, k)`. -/
theorem ref_shifted (r : Fin 50000) (k : Fin 64) :
    val_main_call2_v5 (F := Ideal) x0 x1 x2 x3 x4 x5 (ix2 r k)
      = val_main_v111 (F := Ideal) x0 x1 x2 x3 x4 x5 (ix2 r k) - rowMax (val_main_v111 (F := Ideal) x0 x1 x2 x3 x4 x5) r := by
  have hi : idx_main_call2_v3 (idx_main_call2_v4 (ix2 r k)) = ix1 r :=
    funext fun a => Fin.ext (by match a with | ⟨0, _⟩ => rfl)
  rw [val_main_call2_v5_apply, val_main_call2_v4_apply, val_main_call2_v3_apply, hi, ref_rowMax, Ideal.subf_def]

/-- THE HOST'S RESULT AT `(r, j)`: the log-softmax of the logits' row `r` at column `j`. -/
theorem ref_apply (r : Fin 50000) (j : Fin 64) :
    val_main_v112 (F := Ideal) x0 x1 x2 x3 x4 x5 (ix2 r j)
      = logSoftmaxAt (val_main_v111 (F := Ideal) x0 x1 x2 x3 x4 x5) r j := by
  have hs : ∀ k : Fin 64, val_main_call2_v6 (F := Ideal) x0 x1 x2 x3 x4 x5
        (idx_main_call2_v7 (idx_main_call2_v8 (idx_main_call2_v10 (ix2 r j))) k)
      = Ideal.exp (val_main_v111 (F := Ideal) x0 x1 x2 x3 x4 x5 (ix2 r k) - rowMax (val_main_v111 (F := Ideal) x0 x1 x2 x3 x4 x5) r) := by
    intro k
    have hi : idx_main_call2_v7 (idx_main_call2_v8 (idx_main_call2_v10 (ix2 r j))) k = ix2 r k :=
      funext fun a => Fin.ext (by match a with | ⟨0, _⟩ => rfl | ⟨1, _⟩ => rfl)
    rw [hi, val_main_call2_v6_apply, ref_shifted, Ideal.hostUnary_exp_def]
  rw [val_main_v112_apply, ref_shifted, val_main_call2_v10_apply, val_main_call2_v9_apply, val_main_call2_v8_apply,
    val_main_call2_v7_apply, val_main_call2_cst_1_apply]
  simp only [hs]
  unfold logSoftmaxAt
  generalize val_main_v111 (F := Ideal) x0 x1 x2 x3 x4 x5 = L
  rw [Ideal.subf_def, Ideal.hostUnary_log_def, Ideal.ofBits_def, Ideal.ofBits_zero_f32, zero_add]

end Reference

/-! ## From blocks to the array

Block `t` of either window is rows `2000 t … 2000 t + 1999` of its array, all 64 columns: the printed index maps,
decided once over the 25 grid points. -/

theorem zeroOffsets : (![0, 0] : Fin 2 → Nat) = fun _ => 0 := funext fun a => by fin_cases a <;> rfl

/-- The printed index maps over the grid: both windows' block index at point `t` is `(t, 0)`. -/
theorem blockIndex : ∀ t : Fin cfg3.N, win3_0.index t (0 : Fin 2) = t.val ∧ win3_0.index t (1 : Fin 2) = 0
    ∧ win3_1.index t (0 : Fin 2) = t.val ∧ win3_1.index t (1 : Fin 2) = 0 :=
  (by decide +kernel : ∀ t : Fin grid3.N, _)

/-- A block whose rows are rows `2000 t + p` of an array `L` is taken by the body to the log-softmax of those rows. -/
theorem block_value (B : Vec Ideal S2000x64 .f32) (L : (⟨2, ![50000, 64]⟩ : Shape).Idx → EReal) (t : Nat) (ht : t < 25)
    (hB : ∀ (p : Fin 2000) (k : Fin 64), B (ix2 p k) = L (ix2 (⟨2000 * t + p.val, by omega⟩ : Fin 50000) k)) (y : S2000x64.Idx) :
    k3_pay1 (F := Ideal) B y
      = logSoftmaxAt L (⟨2000 * t + (y 0).val, by have := idx2_lt0 y; omega⟩ : Fin 50000) (⟨(y 1).val, idx2_lt1 y⟩ : Fin 64) := by
  obtain ⟨p, j, rfl⟩ : ∃ (p : Fin 2000) (j : Fin 64), y = ix2 p j := ⟨y 0, y 1, eq_ix2 y⟩
  rw [pay_apply]
  exact logSoftmaxAt_congr B L p _ (hB p) j

/-- An index of the array is in point `t`'s block of the result window iff each coordinate is in the block's range. -/
theorem mem_block (t : Fin cfg3.N) (i : S50000x64.Idx) :
    i ∈ ((cfg3.win 1).blk t).view.set ↔ ∀ a : Fin 2, win3_1.index t a * S2000x64.size a ≤ (i a).val ∧ (i a).val < win3_1.index t a * S2000x64.size a + S2000x64.size a := by
  show i ∈ ((View.whole main_v81).slice (win3_1.rect t)).set ↔ _
  rw [View.set_slice_whole, Rect.mem_set_unit]
  exact Iff.rfl

variable (V : (c : Dev nD) → (b : Ref sig .tc) → Buf (Elt Ideal) ((c : Thread nD τ).loc b))

/-- WHAT POINT `t` WRITES BACK is block `t` of `G`, for any array `G` that is row by row the log-softmax of the logits
    `L` the region finds. -/
theorem flushed_eq (c : Dev nD) (L G : (⟨S50000x64, .f32⟩ : BufTy).Contents (Elt Ideal)) (hL : V c main_v80 = L)
    (hG : ∀ (r : Fin 50000) (j : Fin 64), G (ix2 r j) = logSoftmaxAt L r j) (t : Fin cfg3.N) :
    (dat3 (F := Ideal) V c).flushed 1 t = ((cfg3.win 1).blk t).view.read (Elt Ideal) G := by
  show (cfg3.win 1).cut (grid3.coords t) ((dat3 (F := Ideal) V c).after 1 t) = _
  rw [after3_1]
  unfold out3_1
  rw [View.canon_unit_zero zeroOffsets]
  simp only [View.ld_unit_zero (S := S2000x64) zeroOffsets]
  obtain ⟨e0, e1, e2, e3⟩ := blockIndex t
  have ht : t.val < 25 := Nat.lt_of_lt_of_eq t.isLt (show cfg3.N = 25 from N_3)
  funext y
  show k3_pay1 (F := Ideal) (iblk3 V c 0 t) y = G (((cfg3.win 1).blk t).view.emb y)
  refine (block_value _ L t.val ht ?_ y).trans ?_
  · -- the input block's row p is row 2000 t + p of the logits
    intro p k
    unfold iblk3
    rw [View.read_apply]
    show V c main_v80 (((cfg3.win 0).blk t).view.emb (ix2 p k)) = _
    rw [hL]
    refine congrArg L (funext fun a => Fin.ext ?_)
    match a with
    | ⟨0, _⟩ => show win3_0.index t (0 : Fin 2) * 2000 + 1 * p.val = 2000 * t.val + p.val; omega
    | ⟨1, _⟩ => show win3_0.index t (1 : Fin 2) * 64 + 1 * k.val = k.val; omega
  · -- and the result block's index (p, j) is index (2000 t + p, j) of the array
    rw [← hG]
    refine congrArg G (funext fun a => Fin.ext ?_)
    match a with
    | ⟨0, _⟩ => show 2000 * t.val + (y 0).val = win3_1.index t (0 : Fin 2) * 2000 + 1 * (y 0).val; omega
    | ⟨1, _⟩ => show (y 1).val = win3_1.index t (1 : Fin 2) * 64 + 1 * (y 1).val; omega

/-- Every row of the array is in some point's block: row `r` in the block of point `r / 2000`. -/
theorem covered (i : S50000x64.Idx) : ∃ t : Fin cfg3.N, (cfg3.win 1).flush t = true ∧ i ∈ ((cfg3.win 1).blk t).view.set := by
  have hi0 : (i 0).val < 50000 := (i 0).isLt
  have hi1 : (i 1).val < 64 := (i 1).isLt
  have hN : (i 0).val / 2000 < cfg3.N := by rw [show cfg3.N = 25 from N_3]; omega
  obtain ⟨e0, e1, e2, e3⟩ := blockIndex ⟨(i 0).val / 2000, hN⟩
  refine ⟨⟨(i 0).val / 2000, hN⟩, flush3_1 _, ?_⟩
  rw [mem_block]
  intro a
  match a with
  | ⟨0, _⟩ =>
    show win3_1.index ⟨(i 0).val / 2000, hN⟩ (0 : Fin 2) * 2000 ≤ (i 0).val
      ∧ (i 0).val < win3_1.index ⟨(i 0).val / 2000, hN⟩ (0 : Fin 2) * 2000 + 2000
    rw [e2]; show (i 0).val / 2000 * 2000 ≤ (i 0).val ∧ (i 0).val < (i 0).val / 2000 * 2000 + 2000; omega
  | ⟨1, _⟩ =>
    show win3_1.index ⟨(i 0).val / 2000, hN⟩ (1 : Fin 2) * 64 ≤ (i 1).val
      ∧ (i 1).val < win3_1.index ⟨(i 0).val / 2000, hN⟩ (1 : Fin 2) * 64 + 64
    rw [e3]; omega

/-- The array region 3 leaves is the host's log-softmax of the logits, when the logits the region finds are the
    host's. -/
theorem region3_value (c : Dev nD)
    (x0 : (⟨Cert.ReferenceIdeal.S50000x128, .f32⟩ : BufTy).Contents (Elt Ideal)) (x1 : (⟨Cert.ReferenceIdeal.S2x800000, .i32⟩ : BufTy).Contents (Elt Ideal))
    (x2 : (⟨Cert.ReferenceIdeal.S128x128, .f32⟩ : BufTy).Contents (Elt Ideal)) (x3 : (⟨Cert.ReferenceIdeal.S128, .f32⟩ : BufTy).Contents (Elt Ideal))
    (x4 : (⟨Cert.ReferenceIdeal.S128x64, .f32⟩ : BufTy).Contents (Elt Ideal)) (x5 : (⟨Cert.ReferenceIdeal.S64, .f32⟩ : BufTy).Contents (Elt Ideal))
    (hL : V c main_v80 = Cert.ReferenceIdeal.ReadP.val_main_v111 (F := Ideal) x0 x1 x2 x3 x4 x5) :
    (dat3 (F := Ideal) V c).arrAt 1 cfg3.N = Cert.ReferenceIdeal.ReadP.val_main_v112 (F := Ideal) x0 x1 x2 x3 x4 x5 := by
  have hG := ref_apply x0 x1 x2 x3 x4 x5
  generalize Cert.ReferenceIdeal.ReadP.val_main_v112 (F := Ideal) x0 x1 x2 x3 x4 x5 = G at hG ⊢
  generalize Cert.ReferenceIdeal.ReadP.val_main_v111 (F := Ideal) x0 x1 x2 x3 x4 x5 = L at hL hG
  exact (dat3 (F := Ideal) V c).arrAt_eq_of_cover 1 G (fun t _ => flushed_eq V c L G hL hG t) covered

end Cert.KernelIdeal.RegionValue

end
-- ==== Proof.ResultChain.lean ====
/-
  The kernel's value, followed through @main on the extended reals.

  Between the launch and the return the TensorCore's buffers pass ten boundaries: a stretch of host operations takes
  them to the operations' results, a region leaves its arrays at what its blocks wrote back and everything else as it
  was. The graph data (the endpoints, the edge weights) are computed before the first region and written by nothing
  after; the arguments are written by nothing at all. So at each region's entry the array it projects is the
  reference's stage of the launch arguments (by the stretch before it), the region turns it into the reference's
  product (or, at the end, its log-softmax), and the next stretch into the next stage: at the last boundary @main's
  result buffer holds the reference's last stage.
-/
import proofs.«176027_j23648089931788_1_alg».proof.Proof.HostStretches
import proofs.«176027_j23648089931788_1_alg».proof.Proof.MatmulRegions
import proofs.«176027_j23648089931788_1_alg».proof.Proof.LogSoftmaxRegion

set_option maxRecDepth 16384

noncomputable section

namespace Cert.KernelIdeal.HostValue

open Cert.KernelIdeal Cert.KernelIdeal.Gen
open Idealize.ShloMosaic Idealize.ShloMosaic.TcCoe Idealize.SL.Sem Idealize.ShloMosaic.StableHlo

/-- A stretch of host operations leaves a buffer alone when none of them writes it. -/
local macro "keep_host " ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-! ## The chain, on the extended reals: @main's result is the reference's last stage of the launch arguments -/

section Chain

variable (m : (ℓ : Loc nD τ sig) → Buf (Elt Ideal) ℓ) (ρ : Dev nD → PrngReg) (c : Dev nD)

/-! ### What no stretch and no region writes keeps its contents -/

theorem feat_entry0 : W3 m ρ c (Proc.devRef .tc main_arg0) = (m ((c : Thread nD τ).loc main_arg0)) :=
  calc W3 m ρ c (Proc.devRef .tc main_arg0)
    _ = W2 m ρ c (Proc.devRef .tc main_arg0) := by keep_host hostOps0_2
    _ = W1 m ρ c (Proc.devRef .tc main_arg0) := by keep_host hostOps0_1
    _ = W0 m ρ c (Proc.devRef .tc main_arg0) := by keep_host hostOps0
    _ = (m ((c : Thread nD τ).loc main_arg0)) := rfl

theorem w1_entry0 : W3 m ρ c (Proc.devRef .tc main_arg2) = (m ((c : Thread nD τ).loc main_arg2)) :=
  calc W3 m ρ c (Proc.devRef .tc main_arg2)
    _ = W2 m ρ c (Proc.devRef .tc main_arg2) := by keep_host hostOps0_2
    _ = W1 m ρ c (Proc.devRef .tc main_arg2) := by keep_host hostOps0_1
    _ = W0 m ρ c (Proc.devRef .tc main_arg2) := by keep_host hostOps0
    _ = (m ((c : Thread nD τ).loc main_arg2)) := rfl

theorem w1_entry1 : W5 m ρ c (Proc.devRef .tc main_arg2) = (m ((c : Thread nD τ).loc main_arg2)) :=
  calc W5 m ρ c (Proc.devRef .tc main_arg2)
    _ = W4 m ρ c (Proc.devRef .tc main_arg2) := by keep_host hostOps1
    _ = W3 m ρ c (Proc.devRef .tc main_arg2) := (W4_arr m ρ c 1).trans (((dat0 (V3 m ρ) c).arrAt_in 1 rfl _).trans (A_eq0 (V3 m ρ) c 1))
    _ = (m ((c : Thread nD τ).loc main_arg2)) := w1_entry0 m ρ c

theorem b1_exit0 : W4 m ρ c (Proc.devRef .tc main_arg3) = (m ((c : Thread nD τ).loc main_arg3)) :=
  calc W4 m ρ c (Proc.devRef .tc main_arg3)
    _ = W3 m ρ c (Proc.devRef .tc main_arg3) := W4_of_ne m ρ c main_arg3 (by decide)
    _ = W2 m ρ c (Proc.devRef .tc main_arg3) := by keep_host hostOps0_2
    _ = W1 m ρ c (Proc.devRef .tc main_arg3) := by keep_host hostOps0_1
    _ = W0 m ρ c (Proc.devRef .tc main_arg3) := by keep_host hostOps0
    _ = (m ((c : Thread nD τ).loc main_arg3)) := rfl

theorem b1_exit1 : W6 m ρ c (Proc.devRef .tc main_arg3) = (m ((c : Thread nD τ).loc main_arg3)) :=
  calc W6 m ρ c (Proc.devRef .tc main_arg3)
    _ = W5 m ρ c (Proc.devRef .tc main_arg3) := W6_of_ne m ρ c main_arg3 (by decide)
    _ = W4 m ρ c (Proc.devRef .tc main_arg3) := by keep_host hostOps1
    _ = (m ((c : Thread nD τ).loc main_arg3)) := b1_exit0 m ρ c

theorem w2_entry2 : W7 m ρ c (Proc.devRef .tc main_arg4) = (m ((c : Thread nD τ).loc main_arg4)) :=
  calc W7 m ρ c (Proc.devRef .tc main_arg4)
    _ = W6 m ρ c (Proc.devRef .tc main_arg4) := by keep_host hostOps2
    _ = W5 m ρ c (Proc.devRef .tc main_arg4) := W6_of_ne m ρ c main_arg4 (by decide)
    _ = W4 m ρ c (Proc.devRef .tc main_arg4) := by keep_host hostOps1
    _ = W3 m ρ c (Proc.devRef .tc main_arg4) := W4_of_ne m ρ c main_arg4 (by decide)
    _ = W2 m ρ c (Proc.devRef .tc main_arg4) := by keep_host hostOps0_2
    _ = W1 m ρ c (Proc.devRef .tc main_arg4) := by keep_host hostOps0_1
    _ = W0 m ρ c (Proc.devRef .tc main_arg4) := by keep_host hostOps0
    _ = (m ((c : Thread nD τ).loc main_arg4)) := rfl

theorem b2_exit2 : W8 m ρ c (Proc.devRef .tc main_arg5) = (m ((c : Thread nD τ).loc main_arg5)) :=
  calc W8 m ρ c (Proc.devRef .tc main_arg5)
    _ = W7 m ρ c (Proc.devRef .tc main_arg5) := W8_of_ne m ρ c main_arg5 (by decide)
    _ = W6 m ρ c (Proc.devRef .tc main_arg5) := by keep_host hostOps2
    _ = W5 m ρ c (Proc.devRef .tc main_arg5) := W6_of_ne m ρ c main_arg5 (by decide)
    _ = W4 m ρ c (Proc.devRef .tc main_arg5) := by keep_host hostOps1
    _ = W3 m ρ c (Proc.devRef .tc main_arg5) := W4_of_ne m ρ c main_arg5 (by decide)
    _ = W2 m ρ c (Proc.devRef .tc main_arg5) := by keep_host hostOps0_2
    _ = W1 m ρ c (Proc.devRef .tc main_arg5) := by keep_host hostOps0_1
    _ = W0 m ρ c (Proc.devRef .tc main_arg5) := by keep_host hostOps0
    _ = (m ((c : Thread nD τ).loc main_arg5)) := rfl

/-! ### The graph data at each tail: computed before the first region, written by nothing after -/

theorem src_exit0 : W4 m ρ c (Proc.devRef .tc main_v3) = Cert.ReferenceIdeal.ReadP.val_main_v3 (F := Ideal) (m ((c : Thread nD τ).loc main_arg1)) :=
  (W4_of_ne m ρ c main_v3 (by decide)).trans (src_of_edges (W0 m ρ c))
theorem dst_exit0 : W4 m ρ c (Proc.devRef .tc main_v6) = Cert.ReferenceIdeal.ReadP.val_main_v6 (F := Ideal) (m ((c : Thread nD τ).loc main_arg1)) :=
  (W4_of_ne m ρ c main_v6 (by decide)).trans (dst_of_edges (W0 m ρ c))
theorem norm_exit0 : W4 m ρ c (Proc.devRef .tc main_v29) = Cert.ReferenceIdeal.ReadP.val_main_v30 (F := Ideal) (m ((c : Thread nD τ).loc main_arg1)) :=
  (W4_of_ne m ρ c main_v29 (by decide)).trans (norm_of_edges (W0 m ρ c))

theorem src_exit1 : W6 m ρ c (Proc.devRef .tc main_v3) = Cert.ReferenceIdeal.ReadP.val_main_v3 (F := Ideal) (m ((c : Thread nD τ).loc main_arg1)) :=
  calc W6 m ρ c (Proc.devRef .tc main_v3)
    _ = W5 m ρ c (Proc.devRef .tc main_v3) := W6_of_ne m ρ c main_v3 (by decide)
    _ = W4 m ρ c (Proc.devRef .tc main_v3) := by keep_host hostOps1
    _ = _ := src_exit0 m ρ c
theorem dst_exit1 : W6 m ρ c (Proc.devRef .tc main_v6) = Cert.ReferenceIdeal.ReadP.val_main_v6 (F := Ideal) (m ((c : Thread nD τ).loc main_arg1)) :=
  calc W6 m ρ c (Proc.devRef .tc main_v6)
    _ = W5 m ρ c (Proc.devRef .tc main_v6) := W6_of_ne m ρ c main_v6 (by decide)
    _ = W4 m ρ c (Proc.devRef .tc main_v6) := by keep_host hostOps1
    _ = _ := dst_exit0 m ρ c
theorem norm_exit1 : W6 m ρ c (Proc.devRef .tc main_v29) = Cert.ReferenceIdeal.ReadP.val_main_v30 (F := Ideal) (m ((c : Thread nD τ).loc main_arg1)) :=
  calc W6 m ρ c (Proc.devRef .tc main_v29)
    _ = W5 m ρ c (Proc.devRef .tc main_v29) := W6_of_ne m ρ c main_v29 (by decide)
    _ = W4 m ρ c (Proc.devRef .tc main_v29) := by keep_host hostOps1
    _ = _ := norm_exit0 m ρ c

theorem src_exit2 : W8 m ρ c (Proc.devRef .tc main_v3) = Cert.ReferenceIdeal.ReadP.val_main_v3 (F := Ideal) (m ((c : Thread nD τ).loc main_arg1)) :=
  calc W8 m ρ c (Proc.devRef .tc main_v3)
    _ = W7 m ρ c (Proc.devRef .tc main_v3) := W8_of_ne m ρ c main_v3 (by decide)
    _ = W6 m ρ c (Proc.devRef .tc main_v3) := by keep_host hostOps2
    _ = _ := src_exit1 m ρ c
theorem dst_exit2 : W8 m ρ c (Proc.devRef .tc main_v6) = Cert.ReferenceIdeal.ReadP.val_main_v6 (F := Ideal) (m ((c : Thread nD τ).loc main_arg1)) :=
  calc W8 m ρ c (Proc.devRef .tc main_v6)
    _ = W7 m ρ c (Proc.devRef .tc main_v6) := W8_of_ne m ρ c main_v6 (by decide)
    _ = W6 m ρ c (Proc.devRef .tc main_v6) := by keep_host hostOps2
    _ = _ := dst_exit1 m ρ c
theorem norm_exit2 : W8 m ρ c (Proc.devRef .tc main_v29) = Cert.ReferenceIdeal.ReadP.val_main_v30 (F := Ideal) (m ((c : Thread nD τ).loc main_arg1)) :=
  calc W8 m ρ c (Proc.devRef .tc main_v29)
    _ = W7 m ρ c (Proc.devRef .tc main_v29) := W8_of_ne m ρ c main_v29 (by decide)
    _ = W6 m ρ c (Proc.devRef .tc main_v29) := by keep_host hostOps2
    _ = _ := norm_exit1 m ρ c

/-! ### Region by region, stretch by stretch -/

/-- After the first region: X · W1. -/
theorem proj_first : W4 m ρ c (Proc.devRef .tc main_v30) = Cert.ReferenceIdeal.ReadP.val_main_v15 (F := Ideal) (m ((c : Thread nD τ).loc main_arg0)) (m ((c : Thread nD τ).loc main_arg2)) :=
  (W4_arr m ρ c 2).trans ((Cert.KernelIdeal.RegionValue.region0_value (V3 m ρ) c).trans
    (congrArg₂ (Cert.ReferenceIdeal.ReadP.val_main_v15 (F := Ideal)) (feat_entry0 m ρ c) (w1_entry0 m ρ c)))

/-- After the first tail: the first layer's output. -/
theorem layer_first : W5 m ρ c (Proc.devRef .tc main_v46) = Cert.ReferenceIdeal.ReadP.val_main_v46 (F := Ideal) (m ((c : Thread nD τ).loc main_arg0)) (m ((c : Thread nD τ).loc main_arg1)) (m ((c : Thread nD τ).loc main_arg2)) (m ((c : Thread nD τ).loc main_arg3)) :=
  tail_first (W4 m ρ c) _ _ _ _ (proj_first m ρ c) (src_exit0 m ρ c) (dst_exit0 m ρ c) (norm_exit0 m ρ c) (b1_exit0 m ρ c)

/-- After the second region: h1 · W1. -/
theorem proj_second : W6 m ρ c (Proc.devRef .tc main_v47) = Cert.ReferenceIdeal.ReadP.val_main_v47 (F := Ideal) (m ((c : Thread nD τ).loc main_arg0)) (m ((c : Thread nD τ).loc main_arg1)) (m ((c : Thread nD τ).loc main_arg2)) (m ((c : Thread nD τ).loc main_arg3)) :=
  (W6_arr m ρ c 2).trans ((Cert.KernelIdeal.RegionValue.region1_value (V5 m ρ) c).trans
    (congrArg₂ (Cert.ReferenceIdeal.ReadP.val_main_v15 (F := Ideal)) (layer_first m ρ c) (w1_entry1 m ρ c)))

/-- After the second tail: the second layer's output, before its relu. -/
theorem layer_second : W7 m ρ c (Proc.devRef .tc main_v63) = Cert.ReferenceIdeal.ReadP.val_main_v78 (F := Ideal) (m ((c : Thread nD τ).loc main_arg0)) (m ((c : Thread nD τ).loc main_arg1)) (m ((c : Thread nD τ).loc main_arg2)) (m ((c : Thread nD τ).loc main_arg3)) :=
  tail_second (W6 m ρ c) _ _ _ _ (proj_second m ρ c) (src_exit1 m ρ c) (dst_exit1 m ρ c)
    ((norm_exit1 m ρ c).trans (norm_second _).symm) (b1_exit1 m ρ c)

/-- After the third region: max(h2, 0) · W2. -/
theorem proj_third : W8 m ρ c (Proc.devRef .tc main_v64) = Cert.ReferenceIdeal.ReadP.val_main_v80 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (W8_arr m ρ c 2).trans ((Cert.KernelIdeal.RegionValue.region2_value (V7 m ρ) c).trans
    (congrArg₂ Cert.KernelIdeal.RegionValue.reluProject (layer_second m ρ c) (w2_entry2 m ρ c)))

/-- After the third tail: the logits. -/
theorem logits : W9 m ρ c (Proc.devRef .tc main_v80) = Cert.ReferenceIdeal.ReadP.val_main_v111 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  tail_third (W8 m ρ c) _ _ _ _ _ _ (proj_third m ρ c) (src_exit2 m ρ c) (dst_exit2 m ρ c)
    ((norm_exit2 m ρ c).trans (norm_third _).symm) (b2_exit2 m ρ c)

/-- After the last region: @main's result is the reference's log-softmax of its own logits, of the same arguments. -/
theorem result_value : W10 m ρ c (Proc.devRef .tc main_v81)
    = Cert.ReferenceIdeal.ReadP.val_main_v112 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W10_arr m ρ c 1).trans (Cert.KernelIdeal.RegionValue.region3_value (V9 m ρ) c _ _ _ _ _ _ (logits m ρ c))

end Chain

end Cert.KernelIdeal.HostValue

end
-- ==== Proof.lean ====
/-
  A two-layer graph convolution with a log-softmax head, 50000 nodes and 800000 edges: the kernel's program against the
  host reference, equal on the extended reals.

  Both programs turn the edge list into the same normalised adjacency (self loops appended, degree by scatter-add,
  d = deg^(-1/2) where the degree is positive, edge weight d[src] · d[dst]) and apply three times "project the rows by a
  weight matrix, gather at src, scale, scatter-add over dst, add the bias", the first weight matrix twice, then a
  relu, then the second; a row-wise log-softmax ends both. They differ in three places only. The kernel's projections
  run as regions over blocks of 2000 rows, each block's rows multiplied with the whole weight matrix, all 128 columns
  contracted at once into zeros after a narrowing to bf16 that is the identity on the extended reals: entry by entry the
  host's dot_general. The relu sits inside the third projection, on the rows as they are loaded, where the reference
  applies it to the whole array first: the same max(·, 0) of the same entries. And the kernel's log-softmax is a fourth
  region over blocks of whole rows, against the host's, whose row maximum is joined once more with −∞. No step moves a
  factor across a sum or cancels, so nothing here needs the inputs to be finite.

  The proof follows the value through @main: the run names the result buffer at the last boundary's contents; each
  region's array is read as one whole-array function of what the region found (Proof/MatmulRegions.lean,
  Proof/LogSoftmaxRegion.lean), each host stretch as the reference's own stage of the launch arguments
  (Proof/HostStretches.lean), the two joined boundary by boundary (Proof/ResultChain.lean); the reference's run ends at that same stage, read off its own operations slice by slice
  (Proof/RefStages.lean).
-/
import proofs.«176027_j23648089931788_1_alg».proof.Defs
import proofs.«176027_j23648089931788_1_alg».proof.Proof.Gen.Kernel
import proofs.«176027_j23648089931788_1_alg».proof.Proof.Gen.Kernel.Frame
import proofs.«176027_j23648089931788_1_alg».proof.Proof.Gen.KernelIdeal
import proofs.«176027_j23648089931788_1_alg».proof.Proof.Gen.KernelIdeal.Frame
import proofs.«176027_j23648089931788_1_alg».proof.Proof.Gen.ReferenceIdeal
import proofs.«176027_j23648089931788_1_alg».proof.Proof.Gen.Pre_finite_inputs
import proofs.«176027_j23648089931788_1_alg».proof.Proof.RefRun
import proofs.«176027_j23648089931788_1_alg».proof.Proof.RefRead
import proofs.«176027_j23648089931788_1_alg».proof.Proof.RefStages
import proofs.«176027_j23648089931788_1_alg».proof.Proof.KernelRun
import proofs.«176027_j23648089931788_1_alg».proof.Proof.HostStretches
import proofs.«176027_j23648089931788_1_alg».proof.Proof.ResultChain
import Idealize.ShloMosaic.Adequacy
import Idealize.ShloMosaic.Init

noncomputable section

namespace Cert.Proof

open Idealize.ShloMosaic Idealize.ShloMosaic.TcCoe Idealize.SL.Sem

/-- The kernel as printed runs, and leaves its arguments alone. -/
theorem frame_kernel : Cert.frame_Kernel := fun m ρ _ => Cert.Kernel.Gen.frame m ρ

/-- So does its reading on the extended reals. -/
theorem frame_kernel_ideal : Cert.frame_KernelIdeal := fun m ρ _ => Cert.KernelIdeal.Gen.frame m ρ

/-- The reference is host operations only: its run, with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- Both runs end with the result at the reference's last stage of the kernel's launch arguments: the kernel's by the
    chain through its regions and stretches, the reference's by its own run, the arguments agreeing. -/
theorem algebraic : Cert.algebraic_KernelIdeal_ReferenceIdeal := by
  intro m ρ m' ρ' _ hagree
  refine ⟨fun c => Cert.ReferenceIdeal.ReadP.val_main_v112 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.HostValue.result_value m ρ c), (h c).2⟩)
      (Cert.KernelIdeal.ResultRun.run_result (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.Stages.result_stage, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
